-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v91)) (v2 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v91) = v1 c
          ∧ r.2.mem ((c.tc : Thread Cert.KernelIdeal.nD Cert.KernelIdeal.τ).loc Cert.KernelIdeal.main_v92) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1386 : Shape := ⟨2, ![8192, 1386]⟩
abbrev S65536 : Shape := ⟨1, ![65536]⟩
abbrev S1386x4096 : Shape := ⟨2, ![1386, 4096]⟩
abbrev S4096 : Shape := ⟨1, ![4096]⟩
abbrev S4096x64 : Shape := ⟨2, ![4096, 64]⟩
abbrev S64 : Shape := ⟨1, ![64]⟩
abbrev S_ : Shape := ⟨0, ![]⟩

class Facts : Prop where
  bcast_S_S8192x1386 : S_.BroadcastsInDim S8192x1386 (![] : Fin 0 → Fin S8192x1386.rank)
  reducesTo_S8192x1386_S_d0_1 : S8192x1386.ReducesTo [0, 1] S_
  h_S_ : 0 < S_.numel
  bcast_S_S1386x4096 : S_.BroadcastsInDim S1386x4096 (![] : Fin 0 → Fin S1386x4096.rank)
  reducesTo_S1386x4096_S_d0_1 : S1386x4096.ReducesTo [0, 1] S_
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x1386 .f32) (main_arg1 : IVec S65536 32) (main_arg2 : IVec S65536 32) (main_arg3 : FVec F S1386x4096 .f32) (main_arg4 : FVec F S4096 .f32) (main_arg5 : FVec F S4096x64 .f32) (main_arg6 : FVec F S64 .f32) : IVec S_ 1 :=
  let main_v0 : FVec F S8192x1386 .f32 := Host.absf main_arg0
  let main_cst : FVec F S_ .f32 := constant S_ .f32 0x7F800000#32
  let main_v1 : FVec F S8192x1386 .f32 := broadcastInDim S8192x1386 ![] bcast_S_S8192x1386 main_cst
  let main_v2 : IVec S8192x1386 1 := cmpf .olt main_v0 main_v1
  let main_c : IVec S_ 1 := constantI S_ 1 1#1
  let main_v3 : IVec S_ 1 := (fun x v => Host.reduce IntOp.andi x v reducesTo_S8192x1386_S_d0_1 h_S_) main_v2 main_c
  let main_v4 : FVec F S1386x4096 .f32 := Host.absf main_arg3
  let main_cst_0 : FVec F S_ .f32 := constant S_ .f32 0x7F800000#32
  let main_v5 : FVec F S1386x4096 .f32 := broadcastInDim S1386x4096 ![] bcast_S_S1386x4096 main_cst_0
  let main_v6 : IVec S1386x4096 1 := cmpf .olt main_v4 main_v5
  let main_c_1 : IVec S_ 1 := constantI S_ 1 1#1
  let main_v7 : IVec S_ 1 := (fun x v => Host.reduce IntOp.andi x v reducesTo_S1386x4096_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x64 .f32 := Host.absf main_arg5
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg6 main_v13 main_v16
-- ==== Kernel.lean ====
abbrev S8192x1386 : Shape := ⟨2, ![8192, 1386]⟩
abbrev S65536 : Shape := ⟨1, ![65536]⟩
abbrev S1386x4096 : Shape := ⟨2, ![1386, 4096]⟩
abbrev S4096 : Shape := ⟨1, ![4096]⟩
abbrev S4096x64 : Shape := ⟨2, ![4096, 64]⟩
abbrev S64 : Shape := ⟨1, ![64]⟩
abbrev S8192x4096 : Shape := ⟨2, ![8192, 4096]⟩
abbrev S512x1386 : Shape := ⟨2, ![512, 1386]⟩
abbrev S512x4096 : Shape := ⟨2, ![512, 4096]⟩
abbrev S_ : Shape := ⟨0, ![]⟩
abbrev S8192 : Shape := ⟨1, ![8192]⟩
abbrev S65536x1 : Shape := ⟨2, ![65536, 1]⟩
abbrev S65536x4096 : Shape := ⟨2, ![65536, 4096]⟩
abbrev S8192x1 : Shape := ⟨2, ![8192, 1]⟩
abbrev S1x4096 : Shape := ⟨2, ![1, 4096]⟩
abbrev S512x1 : Shape := ⟨2, ![512, 1]⟩
abbrev S8192x64 : Shape := ⟨2, ![8192, 64]⟩
abbrev S1024x4096 : Shape := ⟨2, ![1024, 4096]⟩
abbrev S1024x64 : Shape := ⟨2, ![1024, 64]⟩
abbrev S65536x64 : Shape := ⟨2, ![65536, 64]⟩
abbrev S1x64 : Shape := ⟨2, ![1, 64]⟩
abbrev S2048x64 : Shape := ⟨2, ![2048, 64]⟩
abbrev S2048x1 : Shape := ⟨2, ![2048, 1]⟩

abbrev nBuf : Space → Nat
  | .hbm => 138
  | .vmem => 28
  | .smem => 0
  | _ => 0

abbrev hbmTy0_0 (i : Nat) : BufTy := match i % 128 with
  | 0 => ⟨S8192x1386, .f32⟩
  | 1 => ⟨S65536, .i32⟩
  | 2 => ⟨S65536, .i32⟩
  | 3 => ⟨S1386x4096, .f32⟩
  | 4 => ⟨S4096, .f32⟩
  | 5 => ⟨S4096x64, .f32⟩
  | 6 => ⟨S64, .f32⟩
  | 7 => ⟨S8192x1386, .bf16⟩
  | 8 => ⟨S1386x4096, .bf16⟩
  | 9 => ⟨S8192x4096, .f32⟩
  | 10 => ⟨S_, .f32⟩
  | 11 => ⟨S65536, .f32⟩
  | 12 => ⟨S_, .f32⟩
  | 13 => ⟨S8192, .f32⟩
  | 14 => ⟨S65536x1, .i32⟩
  | 15 => ⟨S8192, .f32⟩
  | 16 => ⟨S_, .f32⟩
  | 17 => ⟨S8192, .f32⟩
  | 18 => ⟨S65536x1, .i32⟩
  | 19 => ⟨S8192, .f32⟩
  | 20 => ⟨S_, .f32⟩
  | 21 => ⟨S8192, .f32⟩
  | 22 => ⟨S8192, .i1⟩
  | 23 => ⟨S_, .f32⟩
  | 24 => ⟨S8192, .f32⟩
  | 25 => ⟨S8192, .f32⟩
  | 26 => ⟨S_, .f32⟩
  | 27 => ⟨S_, .f32⟩
  | 28 => ⟨S8192, .f32⟩
  | 29 => ⟨S8192, .f32⟩
  | 30 => ⟨S_, .f32⟩
  | 31 => ⟨S8192, .f32⟩
  | 32 => ⟨S8192, .i1⟩
  | 33 => ⟨S_, .f32⟩
  | 34 => ⟨S8192, .f32⟩
  | 35 => ⟨S8192, .f32⟩
  | 36 => ⟨S_, .f32⟩
  | 37 => ⟨S_, .f32⟩
  | 38 => ⟨S8192, .f32⟩
  | 39 => ⟨S8192, .f32⟩
  | 40 => ⟨S_, .i32⟩
  | 41 => ⟨S65536, .i32⟩
  | 42 => ⟨S65536, .i1⟩
  | 43 => ⟨S_, .i32⟩
  | 44 => ⟨S65536, .i32⟩
  | 45 => ⟨S65536, .i32⟩
  | 46 => ⟨S65536, .i32⟩
  | 47 => ⟨S65536x1, .i32⟩
  | 48 => ⟨S65536x4096, .f32⟩
  | 49 => ⟨S_, .f32⟩
  | 50 => ⟨S8192x4096, .f32⟩
  | 51 => ⟨S65536x1, .i32⟩
  | 52 => ⟨S8192x4096, .f32⟩
  | 53 => ⟨S8192x1, .f32⟩
  | 54 => ⟨S8192x4096, .f32⟩
  | 55 => ⟨S8192x4096, .f32⟩
  | 56 => ⟨S_, .i32⟩
  | 57 => ⟨S65536, .i32⟩
  | 58 => ⟨S65536, .i1⟩
  | 59 => ⟨S_, .i32⟩
  | 60 => ⟨S65536, .i32⟩
  | 61 => ⟨S65536, .i32⟩
  | 62 => ⟨S65536, .i32⟩
  | 63 => ⟨S65536x1, .i32⟩
  | 64 => ⟨S65536x4096, .f32⟩
  | 65 => ⟨S_, .f32⟩
  | 66 => ⟨S8192x4096, .f32⟩
  | 67 => ⟨S65536x1, .i32⟩
  | 68 => ⟨S8192x4096, .f32⟩
  | 69 => ⟨S8192x1, .f32⟩
  | 70 => ⟨S1x4096, .f32⟩
  | 71 => ⟨S8192x4096, .f32⟩
  | 72 => ⟨S8192x4096, .bf16⟩
  | 73 => ⟨S4096x64, .bf16⟩
  | 74 => ⟨S8192x64, .f32⟩
  | 75 => ⟨S_, .f32⟩
  | 76 => ⟨S65536, .f32⟩
  | 77 => ⟨S_, .f32⟩
  | 78 => ⟨S8192, .f32⟩
  | 79 => ⟨S65536x1, .i32⟩
  | 80 => ⟨S8192, .f32⟩
  | 81 => ⟨S_, .f32⟩
  | 82 => ⟨S8192, .f32⟩
  | 83 => ⟨S65536x1, .i32⟩
  | 84 => ⟨S8192, .f32⟩
  | 85 => ⟨S_, .f32⟩
  | 86 => ⟨S8192, .f32⟩
  | 87 => ⟨S8192, .i1⟩
  | 88 => ⟨S_, .f32⟩
  | 89 => ⟨S8192, .f32⟩
  | 90 => ⟨S8192, .f32⟩
  | 91 => ⟨S_, .f32⟩
  | 92 => ⟨S_, .f32⟩
  | 93 => ⟨S8192, .f32⟩
  | 94 => ⟨S8192, .f32⟩
  | 95 => ⟨S_, .f32⟩
  | 96 => ⟨S8192, .f32⟩
  | 97 => ⟨S8192, .i1⟩
  | 98 => ⟨S_, .f32⟩
  | 99 => ⟨S8192, .f32⟩
  | 100 => ⟨S8192, .f32⟩
  | 101 => ⟨S_, .f32⟩
  | 102 => ⟨S_, .f32⟩
  | 103 => ⟨S8192, .f32⟩
  | 104 => ⟨S8192, .f32⟩
  | 105 => ⟨S_, .i32⟩
  | 106 => ⟨S65536, .i32⟩
  | 107 => ⟨S65536, .i1⟩
  | 108 => ⟨S_, .i32⟩
  | 109 => ⟨S65536, .i32⟩
  | 110 => ⟨S65536, .i32⟩
  | 111 => ⟨S65536, .i32⟩
  | 112 => ⟨S65536x1, .i32⟩
  | 113 => ⟨S65536x64, .f32⟩
  | 114 => ⟨S_, .f32⟩
  | 115 => ⟨S8192x64, .f32⟩
  | 116 => ⟨S65536x1, .i32⟩
  | 117 => ⟨S8192x64, .f32⟩
  | 118 => ⟨S8192x1, .f32⟩
  | 119 => ⟨S8192x64, .f32⟩
  | 120 => ⟨S8192x64, .f32⟩
  | 121 => ⟨S_, .i32⟩
  | 122 => ⟨S65536, .i32⟩
  | 123 => ⟨S65536, .i1⟩
  | 124 => ⟨S_, .i32⟩
  | 125 => ⟨S65536, .i32⟩
  | 126 => ⟨S65536, .i32⟩
  | 127 => ⟨S65536, .i32⟩
  | _ => ⟨S8192x1386, .f32⟩

abbrev hbmTy0_1 (i : Nat) : BufTy := match i % 128 with
  | 0 => ⟨S65536x1, .i32⟩
  | 1 => ⟨S65536x64, .f32⟩
  | 2 => ⟨S_, .f32⟩
  | 3 => ⟨S8192x64, .f32⟩
  | 4 => ⟨S65536x1, .i32⟩
  | 5 => ⟨S8192x64, .f32⟩
  | 6 => ⟨S8192x1, .f32⟩
  | 7 => ⟨S1x64, .f32⟩
  | 8 => ⟨S8192x64, .f32⟩
  | 9 => ⟨S8192x64, .f32⟩
  | _ => ⟨S8192x1386, .f32⟩

abbrev hbmTy (i : Nat) : BufTy := match i / 128 with
  | 0 => hbmTy0_0 i
  | 1 => hbmTy0_1 i
  | _ => ⟨S8192x1386, .f32⟩

abbrev bufTy : (tb : Table) → Fin (tcTables nBuf tb) → BufTy
  | .hbm, ⟨i, _⟩ => hbmTy i
  | .local _ .vmem, ⟨0, _⟩ => ⟨S512x1386, .bf16⟩
  | .local _ .vmem, ⟨1, _⟩ => ⟨S512x1386, .bf16⟩
  | .local _ .vmem, ⟨2, _⟩ => ⟨S1386x4096, .bf16⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | .local _ .vmem, ⟨6, _⟩ => ⟨S512x4096, .f32⟩
  | .local _ .vmem, ⟨7, _⟩ => ⟨S512x1, .f32⟩
  | .local _ .vmem, ⟨8, _⟩ => ⟨S512x1, .f32⟩
  | .local _ .vmem, ⟨9, _⟩ => ⟨S1x4096, .f32⟩
  | .local _ .vmem, ⟨10, _⟩ => ⟨S512x4096, .f32⟩
  | .local _ .vmem, ⟨11, _⟩ => ⟨S512x4096, .f32⟩
  | .local _ .vmem, ⟨12, _⟩ => ⟨S1024x4096, .bf16⟩
  | .local _ .vmem, ⟨13, _⟩ => ⟨S1024x4096, .bf16⟩
  | .local _ .vmem, ⟨14, _⟩ => ⟨S4096x64, .bf16⟩
  | .local _ .vmem, ⟨15, _⟩ => ⟨S1024x64, .f32⟩
  | .local _ .vmem, ⟨16, _⟩ => ⟨S1024x64, .f32⟩
  | .local _ .vmem, ⟨17, _⟩ => ⟨S2048x64, .f32⟩
  | .local _ .vmem, ⟨18, _⟩ => ⟨S2048x64, .f32⟩
  | .local _ .vmem, ⟨19, _⟩ => ⟨S2048x1, .f32⟩
  | .local _ .vmem, ⟨20, _⟩ => ⟨S2048x1, .f32⟩
  | .local _ .vmem, ⟨21, _⟩ => ⟨S1x64, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S2048x64, .f32⟩
  | .local _ .vmem, ⟨27, _⟩ => ⟨S2048x64, .f32⟩
  | _, _ => ⟨S8192x1386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_v18 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_8 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_10 : Ref sig .tc := ⟨.hbm, 56, rfl⟩
abbrev main_v33 : Ref sig .tc := ⟨.hbm, 57, rfl⟩
abbrev main_v34 : Ref sig .tc := ⟨.hbm, 58, rfl⟩
abbrev main_c_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_12 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_13 : Ref sig .tc := ⟨.hbm, 75, rfl⟩
abbrev main_v49 : Ref sig .tc := ⟨.hbm, 76, rfl⟩
abbrev main_cst_14 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_15 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_16 : Ref sig .tc := ⟨.hbm, 85, rfl⟩
abbrev main_v56 : Ref sig .tc := ⟨.hbm, 86, rfl⟩
abbrev main_v57 : Ref sig .tc := ⟨.hbm, 87, rfl⟩
abbrev main_cst_17 : Ref sig .tc := ⟨.hbm, 88, rfl⟩
abbrev main_v58 : Ref sig .tc := ⟨.hbm, 89, rfl⟩
abbrev main_v59 : Ref sig .tc := ⟨.hbm, 90, rfl⟩
abbrev main_cst_18 : Ref sig .tc := ⟨.hbm, 91, rfl⟩
abbrev main_call2_v0 : Ref sig .tc := ⟨.hbm, 92, rfl⟩
abbrev main_call2_v1 : Ref sig .tc := ⟨.hbm, 93, rfl⟩
abbrev main_v60 : Ref sig .tc := ⟨.hbm, 94, rfl⟩
abbrev main_cst_19 : Ref sig .tc := ⟨.hbm, 95, rfl⟩
abbrev main_v61 : Ref sig .tc := ⟨.hbm, 96, rfl⟩
abbrev main_v62 : Ref sig .tc := ⟨.hbm, 97, rfl⟩
abbrev main_cst_20 : Ref sig .tc := ⟨.hbm, 98, rfl⟩
abbrev main_v63 : Ref sig .tc := ⟨.hbm, 99, rfl⟩
abbrev main_v64 : Ref sig .tc := ⟨.hbm, 100, rfl⟩
abbrev main_cst_21 : Ref sig .tc := ⟨.hbm, 101, rfl⟩
abbrev main_call3_v0 : Ref sig .tc := ⟨.hbm, 102, rfl⟩
abbrev main_call3_v1 : Ref sig .tc := ⟨.hbm, 103, rfl⟩
abbrev main_v65 : Ref sig .tc := ⟨.hbm, 104, rfl⟩
abbrev main_c_22 : Ref sig .tc := ⟨.hbm, 105, rfl⟩
abbrev main_v66 : Ref sig .tc := ⟨.hbm, 106, rfl⟩
abbrev main_v67 : Ref sig .tc := ⟨.hbm, 107, rfl⟩
abbrev main_c_23 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_24 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_c_25 : Ref sig .tc := ⟨.hbm, 121, rfl⟩
abbrev main_v79 : Ref sig .tc := ⟨.hbm, 122, rfl⟩
abbrev main_v80 : Ref sig .tc := ⟨.hbm, 123, rfl⟩
abbrev main_c_26 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_27 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1386 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1386x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  bitsLt_bf16_f32 : FTy.bits .bf16 < FTy.bits .f32
  inb_S512x1386_S512x1386_0_0 : ∀ a, (![0, 0] : Fin 2 → Nat) a + S512x1386.size a ≤ S512x1386.size a
  h_S512x1386 : 0 < S512x1386.numel
  shapeCasts_S512x1386_S512x1386 : S512x1386.ShapeCasts S512x1386
  inb_S1386x4096_S1386x4096_0_0 : ∀ a, (![0, 0] : Fin 2 → Nat) a + S1386x4096.size a ≤ S1386x4096.size a
  h_S1386x4096 : 0 < S1386x4096.numel
  shapeCasts_S1386x4096_S1386x4096 : S1386x4096.ShapeCasts S1386x4096
  inb_S512x4096_S512x4096_0_0 : ∀ a, (![0, 0] : Fin 2 → Nat) a + S512x4096.size a ≤ S512x4096.size a
  h_S512x4096 : 0 < S512x4096.numel
  bcast_S_S65536 : S_.BroadcastsInDim S65536 (![] : Fin 0 → Fin S65536.rank)
  bcast_S_S8192 : S_.BroadcastsInDim S8192 (![] : Fin 0 → Fin S8192.rank)
  bcast_S65536_S65536x1_0 : S65536.BroadcastsInDim S65536x1 (![0] : Fin 1 → Fin S65536x1.rank)
  bcast_S_S8192x4096 : S_.BroadcastsInDim S8192x4096 (![] : Fin 0 → Fin S8192x4096.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  shapeCasts_S8192_S8192x1 : S8192.ShapeCasts S8192x1
  shapeCasts_S4096_S1x4096 : S4096.ShapeCasts S1x4096
  shapeCasts_S512x4096_S512x4096 : S512x4096.ShapeCasts S512x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1024x64_S1024x64_0_0 : ∀ a, (![0, 0] : Fin 2 → Nat) a + S1024x64.size a ≤ S1024x64.size a
  h_S1024x64 : 0 < S1024x64.numel
  bcast_S_S8192x64 : S_.BroadcastsInDim S8192x64 (![] : Fin 0 → Fin S8192x64.rank)
  bcast_S8192x1_S8192x64_0_1 : S8192x1.BroadcastsInDim S8192x64 (![0, 1] : Fin 2 → Fin S8192x64.rank)
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  dot_S512x1386_S1386x4096_S512x4096_1_0_0_1_n_n_wf : DotDims.WF S512x1386 S1386x4096 S512x4096 [1] [0] [0] [1] [] []
  scatter_S8192_S65536x1_S65536_n_0_0_1_wf : ScatterDims.WF S8192 S65536x1 S65536 [] [0] [0] 1
  gather_S8192x4096_S65536x1_S65536x4096_1_0_n_n_0_1_14096_wf : GatherDims.WF S8192x4096 S65536x1 S65536x4096 [1] [0] [] [0] [] 1 ![1, 4096]
  scatter_S8192x4096_S65536x1_S65536x4096_1_0_0_1_wf : ScatterDims.WF S8192x4096 S65536x1 S65536x4096 [1] [0] [0] 1
  dot_S1024x4096_S4096x64_S1024x64_1_0_0_1_n_n_wf : DotDims.WF S1024x4096 S4096x64 S1024x64 [1] [0] [0] [1] [] []
  gather_S8192x64_S65536x1_S65536x64_1_0_n_n_0_1_164_wf : GatherDims.WF S8192x64 S65536x1 S65536x64 [1] [0] [] [0] [] 1 ![1, 64]
  scatter_S8192x64_S65536x1_S65536x64_1_0_0_1_wf : ScatterDims.WF S8192x64 S65536x1 S65536x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1386.size a ≤ S8192x1386.size a
  hwx0_0 : ∀ i : grid0.Coords, EltTy.bits .bf16 = 32 ∨ (Rect.block (s := S8192x1386) S512x1386.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1386x4096.size a ≤ S1386x4096.size a
  hwx0_1 : ∀ i : grid0.Coords, EltTy.bits .bf16 = 32 ∨ (Rect.block (s := S1386x4096) S1386x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S8192x1.size a
  hwx1_1 : ∀ i : grid1.Coords, EltTy.bits .f32 = 32 ∨ (Rect.block (s := S8192x1) S512x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S8192x4096.size a
  hwx1_3 : ∀ i : grid1.Coords, EltTy.bits .f32 = 32 ∨ (Rect.block (s := S8192x4096) S512x4096.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S8192x4096.size a
  hwx2_0 : ∀ i : grid2.Coords, EltTy.bits .bf16 = 32 ∨ (Rect.block (s := S8192x4096) S1024x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S4096x64.size a
  hwx2_1 : ∀ i : grid2.Coords, EltTy.bits .bf16 = 32 ∨ (Rect.block (s := S4096x64) S4096x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S8192x64.size a
  hwx2_2 : ∀ i : grid2.Coords, EltTy.bits .f32 = 32 ∨ (Rect.block (s := S8192x64) S1024x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S8192x64.size a
  hwx3_0 : ∀ i : grid3.Coords, EltTy.bits .f32 = 32 ∨ (Rect.block (s := S8192x64) S2048x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x1.size a ≤ S8192x1.size a
  hwx3_1 : ∀ i : grid3.Coords, EltTy.bits .f32 = 32 ∨ (Rect.block (s := S8192x1) S2048x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x64.size a ≤ S8192x64.size a
  hwx3_3 : ∀ i : grid3.Coords, EltTy.bits .f32 = 32 ∨ (Rect.block (s := S8192x64) S2048x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S8192x64.size a
  hwx4_0 : ∀ i : grid4.Coords, EltTy.bits .f32 = 32 ∨ (Rect.block (s := S8192x64) S2048x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x64.size a ≤ S8192x64.size a
  hwx4_1 : ∀ i : grid4.Coords, EltTy.bits .f32 = 32 ∨ (Rect.block (s := S8192x64) S2048x64.size (cc4_transform_1 i) (hinb4_1 i)).WholeWords (EltTy.packing .f32)

variable [Facts₀]

def dot_S512x1386_S1386x4096_S512x4096_1_0_0_1_n_n : DotDims S512x1386 S1386x4096 S512x4096 where
  lhsContracting := [1]
  rhsContracting := [0]
  lhsNonContracting := [0]
  rhsNonContracting := [1]
  lhsBatch := []
  rhsBatch := []
  wf := dot_S512x1386_S1386x4096_S512x4096_1_0_0_1_n_n_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def gather_S8192x4096_S65536x1_S65536x4096_1_0_n_n_0_1_14096 : GatherDims S8192x4096 S65536x1 S65536x4096 where
  offsetDims := [1]
  collapsedSliceDims := [0]
  operandBatchingDims := []
  startIndicesBatchingDims := []
  startIndexMap := [0]
  indexVectorDim := 1
  sliceSizes := ![1, 4096]
  wf := gather_S8192x4096_S65536x1_S65536x4096_1_0_n_n_0_1_14096_wf
def scatter_S8192x4096_S65536x1_S65536x4096_1_0_0_1 : ScatterDims S8192x4096 S65536x1 S65536x4096 where
  updateWindowDims := [1]
  insertedWindowDims := [0]
  scatterDimsToOperandDims := [0]
  indexVectorDim := 1
  wf := scatter_S8192x4096_S65536x1_S65536x4096_1_0_0_1_wf
def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf
def gather_S8192x64_S65536x1_S65536x64_1_0_n_n_0_1_164 : GatherDims S8192x64 S65536x1 S65536x64 where
  offsetDims := [1]
  collapsedSliceDims := [0]
  operandBatchingDims := []
  startIndicesBatchingDims := []
  startIndexMap := [0]
  indexVectorDim := 1
  sliceSizes := ![1, 64]
  wf := gather_S8192x64_S65536x1_S65536x64_1_0_n_n_0_1_164_wf
def scatter_S8192x64_S65536x1_S65536x64_1_0_0_1 : ScatterDims S8192x64 S65536x1 S65536x64 where
  updateWindowDims := [1]
  insertedWindowDims := [0]
  scatterDimsToOperandDims := [0]
  indexVectorDim := 1
  wf := scatter_S8192x64_S65536x1_S65536x64_1_0_0_1_wf

abbrev win0_0 : Pipeline.Window sig grid0 :=
  Pipeline.Window.ofSpec (Memref.whole main_v0) S512x1386.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1386x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S512x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S4096x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1024x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v88) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S2048x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v90) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S2048x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v91) S2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S2048x64.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S8192x1386 : Shape := ⟨2, ![8192, 1386]⟩
abbrev S65536 : Shape := ⟨1, ![65536]⟩
abbrev S1386x4096 : Shape := ⟨2, ![1386, 4096]⟩
abbrev S4096 : Shape := ⟨1, ![4096]⟩
abbrev S4096x64 : Shape := ⟨2, ![4096, 64]⟩
abbrev S64 : Shape := ⟨1, ![64]⟩
abbrev S8192x4096 : Shape := ⟨2, ![8192, 4096]⟩
abbrev S_ : Shape := ⟨0, ![]⟩
abbrev S8192 : Shape := ⟨1, ![8192]⟩
abbrev S65536x1 : Shape := ⟨2, ![65536, 1]⟩
abbrev S65536x4096 : Shape := ⟨2, ![65536, 4096]⟩
abbrev S8192x1 : Shape := ⟨2, ![8192, 1]⟩
abbrev S1x4096 : Shape := ⟨2, ![1, 4096]⟩
abbrev S8192x64 : Shape := ⟨2, ![8192, 64]⟩
abbrev S65536x64 : Shape := ⟨2, ![65536, 64]⟩
abbrev S1x64 : Shape := ⟨2, ![1, 64]⟩

abbrev nBuf : Space → Nat
  | .hbm => 146
  | .vmem => 0
  | .smem => 0
  | _ => 0

abbrev hbmTy0_0 (i : Nat) : BufTy := match i % 128 with
  | 0 => ⟨S8192x1386, .f32⟩
  | 1 => ⟨S65536, .i32⟩
  | 2 => ⟨S65536, .i32⟩
  | 3 => ⟨S1386x4096, .f32⟩
  | 4 => ⟨S4096, .f32⟩
  | 5 => ⟨S4096x64, .f32⟩
  | 6 => ⟨S64, .f32⟩
  | 7 => ⟨S8192x4096, .f32⟩
  | 8 => ⟨S_, .f32⟩
  | 9 => ⟨S65536, .f32⟩
  | 10 => ⟨S_, .f32⟩
  | 11 => ⟨S8192, .f32⟩
  | 12 => ⟨S65536x1, .i32⟩
  | 13 => ⟨S8192, .f32⟩
  | 14 => ⟨S_, .f32⟩
  | 15 => ⟨S8192, .f32⟩
  | 16 => ⟨S65536x1, .i32⟩
  | 17 => ⟨S8192, .f32⟩
  | 18 => ⟨S_, .f32⟩
  | 19 => ⟨S8192, .f32⟩
  | 20 => ⟨S8192, .i1⟩
  | 21 => ⟨S_, .f32⟩
  | 22 => ⟨S8192, .f32⟩
  | 23 => ⟨S8192, .f32⟩
  | 24 => ⟨S_, .f32⟩
  | 25 => ⟨S_, .f32⟩
  | 26 => ⟨S8192, .f32⟩
  | 27 => ⟨S8192, .f32⟩
  | 28 => ⟨S_, .f32⟩
  | 29 => ⟨S8192, .f32⟩
  | 30 => ⟨S8192, .i1⟩
  | 31 => ⟨S_, .f32⟩
  | 32 => ⟨S8192, .f32⟩
  | 33 => ⟨S8192, .f32⟩
  | 34 => ⟨S_, .f32⟩
  | 35 => ⟨S_, .f32⟩
  | 36 => ⟨S8192, .f32⟩
  | 37 => ⟨S8192, .f32⟩
  | 38 => ⟨S_, .i32⟩
  | 39 => ⟨S65536, .i32⟩
  | 40 => ⟨S65536, .i1⟩
  | 41 => ⟨S_, .i32⟩
  | 42 => ⟨S65536, .i32⟩
  | 43 => ⟨S65536, .i32⟩
  | 44 => ⟨S65536, .i32⟩
  | 45 => ⟨S65536x1, .i32⟩
  | 46 => ⟨S65536x4096, .f32⟩
  | 47 => ⟨S_, .f32⟩
  | 48 => ⟨S8192x4096, .f32⟩
  | 49 => ⟨S65536x1, .i32⟩
  | 50 => ⟨S8192x4096, .f32⟩
  | 51 => ⟨S8192x1, .f32⟩
  | 52 => ⟨S8192x4096, .f32⟩
  | 53 => ⟨S8192x4096, .f32⟩
  | 54 => ⟨S_, .i32⟩
  | 55 => ⟨S65536, .i32⟩
  | 56 => ⟨S65536, .i1⟩
  | 57 => ⟨S_, .i32⟩
  | 58 => ⟨S65536, .i32⟩
  | 59 => ⟨S65536, .i32⟩
  | 60 => ⟨S65536, .i32⟩
  | 61 => ⟨S65536x1, .i32⟩
  | 62 => ⟨S65536x4096, .f32⟩
  | 63 => ⟨S_, .f32⟩
  | 64 => ⟨S8192x4096, .f32⟩
  | 65 => ⟨S65536x1, .i32⟩
  | 66 => ⟨S8192x4096, .f32⟩
  | 67 => ⟨S8192x1, .f32⟩
  | 68 => ⟨S8192x4096, .f32⟩
  | 69 => ⟨S8192x4096, .f32⟩
  | 70 => ⟨S1x4096, .f32⟩
  | 71 => ⟨S8192x4096, .f32⟩
  | 72 => ⟨S8192x4096, .f32⟩
  | 73 => ⟨S_, .f32⟩
  | 74 => ⟨S8192x4096, .f32⟩
  | 75 => ⟨S8192x4096, .f32⟩
  | 76 => ⟨S8192x64, .f32⟩
  | 77 => ⟨S_, .f32⟩
  | 78 => ⟨S65536, .f32⟩
  | 79 => ⟨S_, .f32⟩
  | 80 => ⟨S8192, .f32⟩
  | 81 => ⟨S65536x1, .i32⟩
  | 82 => ⟨S8192, .f32⟩
  | 83 => ⟨S_, .f32⟩
  | 84 => ⟨S8192, .f32⟩
  | 85 => ⟨S65536x1, .i32⟩
  | 86 => ⟨S8192, .f32⟩
  | 87 => ⟨S_, .f32⟩
  | 88 => ⟨S8192, .f32⟩
  | 89 => ⟨S8192, .i1⟩
  | 90 => ⟨S_, .f32⟩
  | 91 => ⟨S8192, .f32⟩
  | 92 => ⟨S8192, .f32⟩
  | 93 => ⟨S_, .f32⟩
  | 94 => ⟨S_, .f32⟩
  | 95 => ⟨S8192, .f32⟩
  | 96 => ⟨S8192, .f32⟩
  | 97 => ⟨S_, .f32⟩
  | 98 => ⟨S8192, .f32⟩
  | 99 => ⟨S8192, .i1⟩
  | 100 => ⟨S_, .f32⟩
  | 101 => ⟨S8192, .f32⟩
  | 102 => ⟨S8192, .f32⟩
  | 103 => ⟨S_, .f32⟩
  | 104 => ⟨S_, .f32⟩
  | 105 => ⟨S8192, .f32⟩
  | 106 => ⟨S8192, .f32⟩
  | 107 => ⟨S_, .i32⟩
  | 108 => ⟨S65536, .i32⟩
  | 109 => ⟨S65536, .i1⟩
  | 110 => ⟨S_, .i32⟩
  | 111 => ⟨S65536, .i32⟩
  | 112 => ⟨S65536, .i32⟩
  | 113 => ⟨S65536, .i32⟩
  | 114 => ⟨S65536x1, .i32⟩
  | 115 => ⟨S65536x64, .f32⟩
  | 116 => ⟨S_, .f32⟩
  | 117 => ⟨S8192x64, .f32⟩
  | 118 => ⟨S65536x1, .i32⟩
  | 119 => ⟨S8192x64, .f32⟩
  | 120 => ⟨S8192x1, .f32⟩
  | 121 => ⟨S8192x64, .f32⟩
  | 122 => ⟨S8192x64, .f32⟩
  | 123 => ⟨S_, .i32⟩
  | 124 => ⟨S65536, .i32⟩
  | 125 => ⟨S65536, .i1⟩
  | 126 => ⟨S_, .i32⟩
  | 127 => ⟨S65536, .i32⟩
  | _ => ⟨S8192x1386, .f32⟩

abbrev hbmTy0_1 (i : Nat) : BufTy := match i % 128 with
  | 0 => ⟨S65536, .i32⟩
  | 1 => ⟨S65536, .i32⟩
  | 2 => ⟨S65536x1, .i32⟩
  | 3 => ⟨S65536x64, .f32⟩
  | 4 => ⟨S_, .f32⟩
  | 5 => ⟨S8192x64, .f32⟩
  | 6 => ⟨S65536x1, .i32⟩
  | 7 => ⟨S8192x64, .f32⟩
  | 8 => ⟨S8192x1, .f32⟩
  | 9 => ⟨S8192x64, .f32⟩
  | 10 => ⟨S8192x64, .f32⟩
  | 11 => ⟨S1x64, .f32⟩
  | 12 => ⟨S8192x64, .f32⟩
  | 13 => ⟨S8192x64, .f32⟩
  | 14 => ⟨S_, .f32⟩
  | 15 => ⟨S8192x64, .f32⟩
  | 16 => ⟨S8192x64, .f32⟩
  | 17 => ⟨S8192x64, .f32⟩
  | _ => ⟨S8192x1386, .f32⟩

abbrev hbmTy (i : Nat) : BufTy := match i / 128 with
  | 0 => hbmTy0_0 i
  | 1 => hbmTy0_1 i
  | _ => ⟨S8192x1386, .f32⟩

abbrev bufTy : (tb : Table) → Fin (tcTables nBuf tb) → BufTy
  | .hbm, ⟨i, _⟩ => hbmTy i
  | _, _ => ⟨S8192x1386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_8 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_9 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_10 : Ref sig .tc := ⟨.hbm, 54, rfl⟩
abbrev main_v31 : Ref sig .tc := ⟨.hbm, 55, rfl⟩
abbrev main_v32 : Ref sig .tc := ⟨.hbm, 56, rfl⟩
abbrev main_c_11 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call2_cst : Ref sig .tc := ⟨.hbm, 73, rfl⟩
abbrev main_call2_v0 : Ref sig .tc := ⟨.hbm, 74, rfl⟩
abbrev main_v47 : Ref sig .tc := ⟨.hbm, 75, rfl⟩
abbrev main_v48 : Ref sig .tc := ⟨.hbm, 76, rfl⟩
abbrev main_cst_13 : Ref sig .tc := ⟨.hbm, 77, rfl⟩
abbrev main_v49 : Ref sig .tc := ⟨.hbm, 78, rfl⟩
abbrev main_cst_14 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_15 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_16 : Ref sig .tc := ⟨.hbm, 87, rfl⟩
abbrev main_v56 : Ref sig .tc := ⟨.hbm, 88, rfl⟩
abbrev main_v57 : Ref sig .tc := ⟨.hbm, 89, rfl⟩
abbrev main_cst_17 : Ref sig .tc := ⟨.hbm, 90, rfl⟩
abbrev main_v58 : Ref sig .tc := ⟨.hbm, 91, rfl⟩
abbrev main_v59 : Ref sig .tc := ⟨.hbm, 92, rfl⟩
abbrev main_cst_18 : Ref sig .tc := ⟨.hbm, 93, rfl⟩
abbrev main_call3_v0 : Ref sig .tc := ⟨.hbm, 94, rfl⟩
abbrev main_call3_v1 : Ref sig .tc := ⟨.hbm, 95, rfl⟩
abbrev main_v60 : Ref sig .tc := ⟨.hbm, 96, rfl⟩
abbrev main_cst_19 : Ref sig .tc := ⟨.hbm, 97, rfl⟩
abbrev main_v61 : Ref sig .tc := ⟨.hbm, 98, rfl⟩
abbrev main_v62 : Ref sig .tc := ⟨.hbm, 99, rfl⟩
abbrev main_cst_20 : Ref sig .tc := ⟨.hbm, 100, rfl⟩
abbrev main_v63 : Ref sig .tc := ⟨.hbm, 101, rfl⟩
abbrev main_v64 : Ref sig .tc := ⟨.hbm, 102, rfl⟩
abbrev main_cst_21 : Ref sig .tc := ⟨.hbm, 103, rfl⟩
abbrev main_call4_v0 : Ref sig .tc := ⟨.hbm, 104, rfl⟩
abbrev main_call4_v1 : Ref sig .tc := ⟨.hbm, 105, rfl⟩
abbrev main_v65 : Ref sig .tc := ⟨.hbm, 106, rfl⟩
abbrev main_c_22 : Ref sig .tc := ⟨.hbm, 107, rfl⟩
abbrev main_v66 : Ref sig .tc := ⟨.hbm, 108, rfl⟩
abbrev main_v67 : Ref sig .tc := ⟨.hbm, 109, rfl⟩
abbrev main_c_23 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_24 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_c_25 : Ref sig .tc := ⟨.hbm, 123, rfl⟩
abbrev main_v79 : Ref sig .tc := ⟨.hbm, 124, rfl⟩
abbrev main_v80 : Ref sig .tc := ⟨.hbm, 125, rfl⟩
abbrev main_c_26 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_27 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_28 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S8192 : S_.BroadcastsInDim S8192 (![] : Fin 0 → Fin S8192.rank)
  bcast_S65536_S65536x1_0 : S65536.BroadcastsInDim S65536x1 (![0] : Fin 1 → Fin S65536x1.rank)
  bcast_S_S8192x4096 : S_.BroadcastsInDim S8192x4096 (![] : Fin 0 → Fin S8192x4096.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x64 : S_.BroadcastsInDim S8192x64 (![] : Fin 0 → Fin S8192x64.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x1386_S1386x4096_S8192x4096_1_0_0_1_n_n_wf : DotDims.WF S8192x1386 S1386x4096 S8192x4096 [1] [0] [0] [1] [] []
  scatter_S8192_S65536x1_S65536_n_0_0_1_wf : ScatterDims.WF S8192 S65536x1 S65536 [] [0] [0] 1
  gather_S8192x4096_S65536x1_S65536x4096_1_0_n_n_0_1_14096_wf : GatherDims.WF S8192x4096 S65536x1 S65536x4096 [1] [0] [] [0] [] 1 ![1, 4096]
  scatter_S8192x4096_S65536x1_S65536x4096_1_0_0_1_wf : ScatterDims.WF S8192x4096 S65536x1 S65536x4096 [1] [0] [0] 1
  dot_S8192x4096_S4096x64_S8192x64_1_0_0_1_n_n_wf : DotDims.WF S8192x4096 S4096x64 S8192x64 [1] [0] [0] [1] [] []
  gather_S8192x64_S65536x1_S65536x64_1_0_n_n_0_1_164_wf : GatherDims.WF S8192x64 S65536x1 S65536x64 [1] [0] [] [0] [] 1 ![1, 64]
  scatter_S8192x64_S65536x1_S65536x64_1_0_0_1_wf : ScatterDims.WF S8192x64 S65536x1 S65536x64 [1] [0] [0] 1

variable [Facts₀]

def dot_S8192x1386_S1386x4096_S8192x4096_1_0_0_1_n_n : DotDims S8192x1386 S1386x4096 S8192x4096 where
  lhsContracting := [1]
  rhsContracting := [0]
  lhsNonContracting := [0]
  rhsNonContracting := [1]
  lhsBatch := []
  rhsBatch := []
  wf := dot_S8192x1386_S1386x4096_S8192x4096_1_0_0_1_n_n_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def gather_S8192x4096_S65536x1_S65536x4096_1_0_n_n_0_1_14096 : GatherDims S8192x4096 S65536x1 S65536x4096 where
  offsetDims := [1]
  collapsedSliceDims := [0]
  operandBatchingDims := []
  startIndicesBatchingDims := []
  startIndexMap := [0]
  indexVectorDim := 1
  sliceSizes := ![1, 4096]
  wf := gather_S8192x4096_S65536x1_S65536x4096_1_0_n_n_0_1_14096_wf
def scatter_S8192x4096_S65536x1_S65536x4096_1_0_0_1 : ScatterDims S8192x4096 S65536x1 S65536x4096 where
  updateWindowDims := [1]
  insertedWindowDims := [0]
  scatterDimsToOperandDims := [0]
  indexVectorDim := 1
  wf := scatter_S8192x4096_S65536x1_S65536x4096_1_0_0_1_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def gather_S8192x64_S65536x1_S65536x64_1_0_n_n_0_1_164 : GatherDims S8192x64 S65536x1 S65536x64 where
  offsetDims := [1]
  collapsedSliceDims := [0]
  operandBatchingDims := []
  startIndicesBatchingDims := []
  startIndexMap := [0]
  indexVectorDim := 1
  sliceSizes := ![1, 64]
  wf := gather_S8192x64_S65536x1_S65536x64_1_0_n_n_0_1_164_wf
def scatter_S8192x64_S65536x1_S65536x64_1_0_0_1 : ScatterDims S8192x64 S65536x1 S65536x64 where
  updateWindowDims := [1]
  insertedWindowDims := [0]
  scatterDimsToOperandDims := [0]
  indexVectorDim := 1
  wf := scatter_S8192x64_S65536x1_S65536x64_1_0_0_1_wf

class Facts : Prop extends Facts₀ where

variable [Facts]
-- ==== Proof.Chain.lean ====
/-
  The aggregation both programs share, as named functions.

  Between their dense stages both programs pass an array through the same host operations: count how often each of the
  8192 ids occurs among the 65536 incidences, take reciprocals of the positive counts, carry rows from nodes to
  hyperedges (a gather of rows followed by a sum into the rows the ids name), divide each hyperedge's row by the
  hyperedge's size, and carry the rows back to the nodes. The two programs print these operations with dimension records
  of their own, so the functions are written twice, once in each program's vocabulary, with the same words; the two
  copies are then one function (the records hold the same numbers), whatever the float instance.
-/
import proofs.«121961_j88364657148583_1_alg».proof.Proof.Gen.KernelIdeal
import proofs.«121961_j88364657148583_1_alg».proof.Proof.Gen.ReferenceIdeal

noncomputable section

namespace Cert.KernelIdeal.Chain

open Cert.KernelIdeal Cert.KernelIdeal.Gen Idealize.ShloMosaic

variable {F : FTy → Type} [FloatOps F]

/-- How many of the 65536 incidences carry each of the 8192 ids: ones summed into zeros at the positions the ids name. -/
def count (idx : Vec F S65536 .i32) : Vec F S8192 .f32 :=
  Host.scatterAdd scatter_S8192_S65536x1_S65536_n_0_0_1
    (broadcastInDim S8192 ![] bcast_S_S8192 (constant S_ .f32 0x00000000#32))
    (broadcastInDim S65536x1 ![0] bcast_S65536_S65536x1_0 idx)
    (broadcastInDim S65536 ![] bcast_S_S65536 (constant S_ .f32 0x3F800000#32))

/-- The reciprocal of each count where the count is positive, zero elsewhere. -/
def recip (idx : Vec F S65536 .i32) : Vec F S8192 .f32 :=
  select (cmpf (F := F) .ogt (count idx) (broadcastInDim S8192 ![] bcast_S_S8192 (constant S_ .f32 0x00000000#32)))
    (Host.divf (broadcastInDim S8192 ![] bcast_S_S8192 (constant S_ .f32 0x3F800000#32)) (count idx))
    (broadcastInDim S8192 ![] bcast_S_S8192 (id (constant S_ .f32 0x00000000#32)))

/-- A negative id counts from the end: 8192 is added to it. -/
def wrap (idx : Vec F S65536 .i32) : Vec F S65536 .i32 :=
  select (cmpi .slt idx (broadcastInDim S65536 ![] bcast_S_S65536 (constantI S_ 32 0#32)))
    (addi idx (broadcastInDim S65536 ![] bcast_S_S65536 (constantI S_ 32 8192#32))) idx

/-- One hop along the incidences, 4096 columns wide: for each incidence the row of `y` its source id names is taken, and
    the taken rows are summed into zeros at the rows the destination ids name. -/
def hop4096 (y : Vec F S8192x4096 .f32) (src dst : Vec F S65536 .i32) : Vec F S8192x4096 .f32 :=
  Host.scatterAdd scatter_S8192x4096_S65536x1_S65536x4096_1_0_0_1
    (broadcastInDim S8192x4096 ![] bcast_S_S8192x4096 (constant S_ .f32 0x00000000#32))
    (broadcastInDim S65536x1 ![0] bcast_S65536_S65536x1_0 dst)
    (Host.gather gather_S8192x4096_S65536x1_S65536x4096_1_0_n_n_0_1_14096 y
      (broadcastInDim S65536x1 ![0] bcast_S65536_S65536x1_0 (wrap src)))

/-- Every row of a 4096-column array times that row's weight. -/
def rows4096 (y : Vec F S8192x4096 .f32) (w : Vec F S8192 .f32) : Vec F S8192x4096 .f32 :=
  mulf y (broadcastInDim S8192x4096 ![0, 1] bcast_S8192x1_S8192x4096_0_1 (broadcastInDim S8192x1 ![0] bcast_S8192_S8192x1_0 w))

/-- Nodes to hyperedges, each hyperedge's sum divided by its size, and back to the nodes, 4096 columns wide. -/
def there_and_back4096 (y : Vec F S8192x4096 .f32) (node edge : Vec F S65536 .i32) : Vec F S8192x4096 .f32 :=
  hop4096 (rows4096 (hop4096 y node edge) (recip edge)) edge node

/-- One hop along the incidences, 64 columns wide. -/
def hop64 (y : Vec F S8192x64 .f32) (src dst : Vec F S65536 .i32) : Vec F S8192x64 .f32 :=
  Host.scatterAdd scatter_S8192x64_S65536x1_S65536x64_1_0_0_1
    (broadcastInDim S8192x64 ![] bcast_S_S8192x64 (constant S_ .f32 0x00000000#32))
    (broadcastInDim S65536x1 ![0] bcast_S65536_S65536x1_0 dst)
    (Host.gather gather_S8192x64_S65536x1_S65536x64_1_0_n_n_0_1_164 y
      (broadcastInDim S65536x1 ![0] bcast_S65536_S65536x1_0 (wrap src)))

/-- Every row of a 64-column array times that row's weight. -/
def rows64 (y : Vec F S8192x64 .f32) (w : Vec F S8192 .f32) : Vec F S8192x64 .f32 :=
  mulf y (broadcastInDim S8192x64 ![0, 1] bcast_S8192x1_S8192x64_0_1 (broadcastInDim S8192x1 ![0] bcast_S8192_S8192x1_0 w))

/-- Nodes to hyperedges, each hyperedge's sum divided by its size, and back to the nodes, 64 columns wide. -/
def there_and_back64 (y : Vec F S8192x64 .f32) (node edge : Vec F S65536 .i32) : Vec F S8192x64 .f32 :=
  hop64 (rows64 (hop64 y node edge) (recip edge)) edge node

end Cert.KernelIdeal.Chain

namespace Cert.ReferenceIdeal.Chain

open Cert.ReferenceIdeal Cert.ReferenceIdeal.Gen Idealize.ShloMosaic

variable {F : FTy → Type} [FloatOps F]

/-- How many of the 65536 incidences carry each of the 8192 ids: ones summed into zeros at the positions the ids name. -/
def count (idx : Vec F S65536 .i32) : Vec F S8192 .f32 :=
  Host.scatterAdd scatter_S8192_S65536x1_S65536_n_0_0_1
    (broadcastInDim S8192 ![] bcast_S_S8192 (constant S_ .f32 0x00000000#32))
    (broadcastInDim S65536x1 ![0] bcast_S65536_S65536x1_0 idx)
    (broadcastInDim S65536 ![] bcast_S_S65536 (constant S_ .f32 0x3F800000#32))

/-- The reciprocal of each count where the count is positive, zero elsewhere. -/
def recip (idx : Vec F S65536 .i32) : Vec F S8192 .f32 :=
  select (cmpf (F := F) .ogt (count idx) (broadcastInDim S8192 ![] bcast_S_S8192 (constant S_ .f32 0x00000000#32)))
    (Host.divf (broadcastInDim S8192 ![] bcast_S_S8192 (constant S_ .f32 0x3F800000#32)) (count idx))
    (broadcastInDim S8192 ![] bcast_S_S8192 (id (constant S_ .f32 0x00000000#32)))

/-- A negative id counts from the end: 8192 is added to it. -/
def wrap (idx : Vec F S65536 .i32) : Vec F S65536 .i32 :=
  select (cmpi .slt idx (broadcastInDim S65536 ![] bcast_S_S65536 (constantI S_ 32 0#32)))
    (addi idx (broadcastInDim S65536 ![] bcast_S_S65536 (constantI S_ 32 8192#32))) idx

/-- One hop along the incidences, 4096 columns wide: for each incidence the row of `y` its source id names is taken, and
    the taken rows are summed into zeros at the rows the destination ids name. -/
def hop4096 (y : Vec F S8192x4096 .f32) (src dst : Vec F S65536 .i32) : Vec F S8192x4096 .f32 :=
  Host.scatterAdd scatter_S8192x4096_S65536x1_S65536x4096_1_0_0_1
    (broadcastInDim S8192x4096 ![] bcast_S_S8192x4096 (constant S_ .f32 0x00000000#32))
    (broadcastInDim S65536x1 ![0] bcast_S65536_S65536x1_0 dst)
    (Host.gather gather_S8192x4096_S65536x1_S65536x4096_1_0_n_n_0_1_14096 y
      (broadcastInDim S65536x1 ![0] bcast_S65536_S65536x1_0 (wrap src)))

/-- Every row of a 4096-column array times that row's weight. -/
def rows4096 (y : Vec F S8192x4096 .f32) (w : Vec F S8192 .f32) : Vec F S8192x4096 .f32 :=
  mulf y (broadcastInDim S8192x4096 ![0, 1] bcast_S8192x1_S8192x4096_0_1 (broadcastInDim S8192x1 ![0] bcast_S8192_S8192x1_0 w))

/-- Nodes to hyperedges, each hyperedge's sum divided by its size, and back to the nodes, 4096 columns wide. -/
def there_and_back4096 (y : Vec F S8192x4096 .f32) (node edge : Vec F S65536 .i32) : Vec F S8192x4096 .f32 :=
  hop4096 (rows4096 (hop4096 y node edge) (recip edge)) edge node

/-- One hop along the incidences, 64 columns wide. -/
def hop64 (y : Vec F S8192x64 .f32) (src dst : Vec F S65536 .i32) : Vec F S8192x64 .f32 :=
  Host.scatterAdd scatter_S8192x64_S65536x1_S65536x64_1_0_0_1
    (broadcastInDim S8192x64 ![] bcast_S_S8192x64 (constant S_ .f32 0x00000000#32))
    (broadcastInDim S65536x1 ![0] bcast_S65536_S65536x1_0 dst)
    (Host.gather gather_S8192x64_S65536x1_S65536x64_1_0_n_n_0_1_164 y
      (broadcastInDim S65536x1 ![0] bcast_S65536_S65536x1_0 (wrap src)))

/-- Every row of a 64-column array times that row's weight. -/
def rows64 (y : Vec F S8192x64 .f32) (w : Vec F S8192 .f32) : Vec F S8192x64 .f32 :=
  mulf y (broadcastInDim S8192x64 ![0, 1] bcast_S8192x1_S8192x64_0_1 (broadcastInDim S8192x1 ![0] bcast_S8192_S8192x1_0 w))

/-- Nodes to hyperedges, each hyperedge's sum divided by its size, and back to the nodes, 64 columns wide. -/
def there_and_back64 (y : Vec F S8192x64 .f32) (node edge : Vec F S65536 .i32) : Vec F S8192x64 .f32 :=
  hop64 (rows64 (hop64 y node edge) (recip edge)) edge node

end Cert.ReferenceIdeal.Chain

/-! ## The two copies are one function -/

namespace Cert.Chain

open Idealize.ShloMosaic

variable {F : FTy → Type} [FloatOps F]

theorem recip_eq (idx : Vec F Cert.KernelIdeal.S65536 .i32) :
    Cert.KernelIdeal.Chain.recip idx = Cert.ReferenceIdeal.Chain.recip idx := rfl

theorem there_and_back4096_eq (y : Vec F Cert.KernelIdeal.S8192x4096 .f32) (node edge : Vec F Cert.KernelIdeal.S65536 .i32) :
    Cert.KernelIdeal.Chain.there_and_back4096 y node edge = Cert.ReferenceIdeal.Chain.there_and_back4096 y node edge := rfl

theorem there_and_back64_eq (y : Vec F Cert.KernelIdeal.S8192x64 .f32) (node edge : Vec F Cert.KernelIdeal.S65536 .i32) :
    Cert.KernelIdeal.Chain.there_and_back64 y node edge = Cert.ReferenceIdeal.Chain.there_and_back64 y node edge := rfl

end Cert.Chain

end
-- ==== Proof.RefValue.lean ====
/-
  The reference's three results as compositions of named stages.

  The reference's first layer is: the matrix product of the input and the first weight, carried from nodes to hyperedges
  and back (each hyperedge's sum divided by its size), each node's row divided by the node's count, the bias added to
  every row, negative entries replaced by zero. Its second layer is the same with the second weight and bias, on the first
  layer's result and without the clamp. Its third result is the hyperbolic tangent of one times the second. The run of
  the reference states each result as one long term of the arguments; here that term is recognised as these
  compositions (the same operations in the same order, so nothing is computed), at any float instance.
-/
import proofs.«121961_j88364657148583_1_alg».proof.Proof.RefRun
import proofs.«121961_j88364657148583_1_alg».proof.Proof.Chain

set_option maxRecDepth 16384

noncomputable section

namespace Cert.ReferenceIdeal.Results

open Cert.ReferenceIdeal Cert.ReferenceIdeal.Gen Cert.ReferenceIdeal.Chain
open Idealize.ShloMosaic Idealize.ShloMosaic.TcCoe Idealize.SL.Sem

variable {F : FTy → Type} [FloatOps F]

/-- A bias, one entry per column, added to every row of a 4096-column array. -/
def plusBias4096 (y : Vec F S8192x4096 .f32) (b : Vec F S4096 .f32) : Vec F S8192x4096 .f32 :=
  addf y (broadcastInDim S8192x4096 ![0, 1] bcast_S1x4096_S8192x4096_0_1 (broadcastInDim S1x4096 ![1] bcast_S4096_S1x4096_1 b))

/-- A bias, one entry per column, added to every row of a 64-column array. -/
def plusBias64 (y : Vec F S8192x64 .f32) (b : Vec F S64 .f32) : Vec F S8192x64 .f32 :=
  addf y (broadcastInDim S8192x64 ![0, 1] bcast_S1x64_S8192x64_0_1 (broadcastInDim S1x64 ![1] bcast_S64_S1x64_1 b))

/-- The first layer on an already multiplied array: there and back along the incidences, each node's row divided by the
    node's count, the bias added, negative entries replaced by zero. -/
def layer1 (xw : Vec F S8192x4096 .f32) (node edge : Vec F S65536 .i32) (b : Vec F S4096 .f32) : Vec F S8192x4096 .f32 :=
  maximumf (plusBias4096 (rows4096 (there_and_back4096 xw node edge) (recip node)) b)
    (broadcastInDim S8192x4096 ![] bcast_S_S8192x4096 (constant S_ .f32 0x00000000#32))

/-- The second layer on an already multiplied array: the same without the clamp, 64 columns wide. -/
def layer2 (xw : Vec F S8192x64 .f32) (node edge : Vec F S65536 .i32) (b : Vec F S64 .f32) : Vec F S8192x64 .f32 :=
  plusBias64 (rows64 (there_and_back64 xw node edge) (recip node)) b

/-- The reference's first result. -/
def feat (x : Vec F S8192x1386 .f32) (node edge : Vec F S65536 .i32) (w1 : Vec F S1386x4096 .f32) (b1 : Vec F S4096 .f32) :
    Vec F S8192x4096 .f32 :=
  layer1 (Host.dotGeneral dot_S8192x1386_S1386x4096_S8192x4096_1_0_0_1_n_n none x w1) node edge b1

/-- The reference's second result, from its first. -/
def hid (ft : Vec F S8192x4096 .f32) (node edge : Vec F S65536 .i32) (w2 : Vec F S4096x64 .f32) (b2 : Vec F S64 .f32) :
    Vec F S8192x64 .f32 :=
  layer2 (Host.dotGeneral dot_S8192x4096_S4096x64_S8192x64_1_0_0_1_n_n none ft w2) node edge b2

/-- The reference's third result, from its second: the hyperbolic tangent of one times it. -/
def code (h : Vec F S8192x64 .f32) : Vec F S8192x64 .f32 :=
  Host.tanh (mulf (broadcastInDim S8192x64 ![] bcast_S_S8192x64 (constant S_ .f32 0x3F800000#32)) h)

variable (m : (ℓ : Loc nD τ sig) → Buf (Elt F) ℓ) (ρ : Dev nD → PrngReg)

/-- The first result as the reference's run states it, as a function of the launch memory. -/
abbrev featAt (c : Dev nD) : Vec F S8192x4096 .f32 :=
  feat (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The second result, as a function of the launch memory. -/
abbrev hidAt (c : Dev nD) : Vec F S8192x64 .f32 :=
  hid (featAt m c) (m ((c.tc : Thread nD τ).loc main_arg1)) (m ((c.tc : Thread nD τ).loc main_arg2))
    (m ((c.tc : Thread nD τ).loc main_arg5)) (m ((c.tc : Thread nD τ).loc main_arg6))

set_option maxHeartbeats 2000000 in
/-- The reference's run with its three results named by stage: every weakly fair execution terminates, the results at
    the compositions above of the arguments as launched, the arguments unchanged. -/
theorem run_staged : θ_run defs (onTc (τ := τ) (main (F := F))) ⟨m, fun _ => 0, ρ⟩ fun r => ∀ c : Dev nD,
      r.2.mem ((c.tc : Thread nD τ).loc main_v47) = featAt m c
      ∧ r.2.mem ((c.tc : Thread nD τ).loc main_v94) = hidAt m c
      ∧ r.2.mem ((c.tc : Thread nD τ).loc main_v97) = code (hidAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans rfl,
      (h c).2.1.trans (by unfold Cert.ReferenceIdeal.ValueP.res_main_v94; rfl),
      (h c).2.2.1.trans (by unfold Cert.ReferenceIdeal.ValueP.res_main_v97; rfl),
      (h c).2.2.2⟩)
    (Cert.ReferenceIdeal.ValueP.run m ρ)

end Cert.ReferenceIdeal.Results

end
-- ==== Proof.StretchA.lean ====
/-
  The host operations between the first and the second kernel region, read at the buffers the second region loads.

  From any contents W of the buffers, the 58 operations leave: in the data buffer, the first region's output carried from
  nodes to hyperedges and back (each hyperedge's sum divided by its size); in the scale buffer, the reciprocal node counts
  reshaped to a column; in the bias buffer, the bias argument reshaped to a row. They write no argument buffer.
-/
import proofs.«121961_j88364657148583_1_alg».proof.Proof.Gen.KernelIdeal.Launch
import proofs.«121961_j88364657148583_1_alg».proof.Proof.Chain
import Idealize.ShloMosaic.Lib.StableHlo.Run
import Idealize.ShloMosaic.Lib.Tactic

set_option maxRecDepth 16384

noncomputable section

namespace Cert.KernelIdeal.Stretch

open Cert.KernelIdeal Cert.KernelIdeal.Gen Cert.KernelIdeal.Chain
open Idealize.ShloMosaic Idealize.ShloMosaic.TcCoe Idealize.SL.Sem Idealize.ShloMosaic.StableHlo

variable {F : FTy → Type} [FloatOps F]

/-- No operation of the stretch at hand writes the buffer at hand: every operation's one result buffer is another. -/
macro "not_written" : tactic => `(tactic| (
  refine List.forall_iff_forall_mem.mp ?_
  simp only [hostOps0, hostOps1, hostOps1_1, hostOps1_2, hostOps1_3, hostOps1_4, hostOps2, hostOps3, hostOps3_1, hostOps3_2,
    hostOps3_3, hostOps3_4, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The buffers' contents after the operations between the first and the second kernel region, from the contents W. -/
abbrev betweenA (W : Valuation τ sig (Elt F)) : Valuation τ sig (Elt F) :=
  after hostOps1_4 (after hostOps1_3 (after hostOps1_2 (after hostOps1_1 (after hostOps1 W))))

set_option maxHeartbeats 4000000 in
/-- The second region's data: the first region's output, there and back along the incidences. -/
theorem A_data (W : Valuation τ sig (Elt F)) :
    betweenA W (Proc.devRef .tc main_v42)
      = there_and_back4096 (W (Proc.devRef .tc main_v2)) (W (Proc.devRef .tc main_arg1)) (W (Proc.devRef .tc main_arg2)) := by
  after_results <;> (try simp only [TRef.ofBuf, TRef.toBuf, cast_eq]) <;> rfl

set_option maxHeartbeats 4000000 in
/-- The second region's scale: the reciprocal node counts as a column. -/
theorem A_scale (W : Valuation τ sig (Elt F)) :
    betweenA W (Proc.devRef .tc main_v43)
      = shapeCast S8192x1 (recip (W (Proc.devRef .tc main_arg1))) shapeCasts_S8192_S8192x1 := by
  after_results <;> (try simp only [TRef.ofBuf, TRef.toBuf, cast_eq]) <;> rfl

set_option maxHeartbeats 4000000 in
/-- The second region's bias: the bias argument as a row. -/
theorem A_bias (W : Valuation τ sig (Elt F)) :
    betweenA W (Proc.devRef .tc main_v44)
      = shapeCast S1x4096 (W (Proc.devRef .tc main_arg4)) shapeCasts_S4096_S1x4096 := by
  after_results <;> (try simp only [TRef.ofBuf, TRef.toBuf, cast_eq]) <;> rfl

theorem A_keeps_main_arg1 (W : Valuation τ sig (Elt F)) :
    betweenA W (Proc.devRef .tc main_arg1) = W (Proc.devRef .tc main_arg1) :=
  (after_of_forall_not_mem (b := Proc.devRef .tc main_arg1) (hostOps1_4 (F := F)) _ (by not_written)).trans <|
  (after_of_forall_not_mem (b := Proc.devRef .tc main_arg1) (hostOps1_3 (F := F)) _ (by not_written)).trans <|
  (after_of_forall_not_mem (b := Proc.devRef .tc main_arg1) (hostOps1_2 (F := F)) _ (by not_written)).trans <|
  (after_of_forall_not_mem (b := Proc.devRef .tc main_arg1) (hostOps1_1 (F := F)) _ (by not_written)).trans <|
  after_of_forall_not_mem (b := Proc.devRef .tc main_arg1) (hostOps1 (F := F)) _ (by not_written)

theorem A_keeps_main_arg2 (W : Valuation τ sig (Elt F)) :
    betweenA W (Proc.devRef .tc main_arg2) = W (Proc.devRef .tc main_arg2) :=
  (after_of_forall_not_mem (b := Proc.devRef .tc main_arg2) (hostOps1_4 (F := F)) _ (by not_written)).trans <|
  (after_of_forall_not_mem (b := Proc.devRef .tc main_arg2) (hostOps1_3 (F := F)) _ (by not_written)).trans <|
  (after_of_forall_not_mem (b := Proc.devRef .tc main_arg2) (hostOps1_2 (F := F)) _ (by not_written)).trans <|
  (after_of_forall_not_mem (b := Proc.devRef .tc main_arg2) (hostOps1_1 (F := F)) _ (by not_written)).trans <|
  after_of_forall_not_mem (b := Proc.devRef .tc main_arg2) (hostOps1 (F := F)) _ (by not_written)

theorem A_keeps_main_arg5 (W : Valuation τ sig (Elt F)) :
    betweenA W (Proc.devRef .tc main_arg5) = W (Proc.devRef .tc main_arg5) :=
  (after_of_forall_not_mem (b := Proc.devRef .tc main_arg5) (hostOps1_4 (F := F)) _ (by not_written)).trans <|
  (after_of_forall_not_mem (b := Proc.devRef .tc main_arg5) (hostOps1_3 (F := F)) _ (by not_written)).trans <|
  (after_of_forall_not_mem (b := Proc.devRef .tc main_arg5) (hostOps1_2 (F := F)) _ (by not_written)).trans <|
  (after_of_forall_not_mem (b := Proc.devRef .tc main_arg5) (hostOps1_1 (F := F)) _ (by not_written)).trans <|
  after_of_forall_not_mem (b := Proc.devRef .tc main_arg5) (hostOps1 (F := F)) _ (by not_written)

theorem A_keeps_main_arg6 (W : Valuation τ sig (Elt F)) :
    betweenA W (Proc.devRef .tc main_arg6) = W (Proc.devRef .tc main_arg6) :=
  (after_of_forall_not_mem (b := Proc.devRef .tc main_arg6) (hostOps1_4 (F := F)) _ (by not_written)).trans <|
  (after_of_forall_not_mem (b := Proc.devRef .tc main_arg6) (hostOps1_3 (F := F)) _ (by not_written)).trans <|
  (after_of_forall_not_mem (b := Proc.devRef .tc main_arg6) (hostOps1_2 (F := F)) _ (by not_written)).trans <|
  (after_of_forall_not_mem (b := Proc.devRef .tc main_arg6) (hostOps1_1 (F := F)) _ (by not_written)).trans <|
  after_of_forall_not_mem (b := Proc.devRef .tc main_arg6) (hostOps1 (F := F)) _ (by not_written)

end Cert.KernelIdeal.Stretch

end
-- ==== Proof.StretchB.lean ====
/-
  The two short host stretches in front of the two matrix products, read at the buffers those regions load.

  Each stretch converts a float array and a weight array to the narrower format entry by entry, writing two new
  buffers and nothing else.
-/
import proofs.«121961_j88364657148583_1_alg».proof.Proof.Gen.KernelIdeal.Launch
import proofs.«121961_j88364657148583_1_alg».proof.Proof.Chain
import Idealize.ShloMosaic.Lib.StableHlo.Run
import Idealize.ShloMosaic.Lib.Tactic

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-- No operation of the stretch at hand writes the buffer at hand: every operation's one result buffer is another. -/
macro "not_written_b" : tactic => `(tactic| (
  refine List.forall_iff_forall_mem.mp ?_
  simp only [hostOps0, hostOps1, hostOps1_1, hostOps1_2, hostOps1_3, hostOps1_4, hostOps2, hostOps3, hostOps3_1, hostOps3_2,
    hostOps3_3, hostOps3_4, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- Before the first region: the first argument, narrowed. -/
theorem first_left (W : Valuation τ sig (Elt F)) :
    after hostOps0 W (Proc.devRef .tc main_v0) = truncf .bf16 (W (Proc.devRef .tc main_arg0)) bitsLt_bf16_f32 := by
  after_results <;> rfl

/-- Before the first region: the first weight argument, narrowed. -/
theorem first_right (W : Valuation τ sig (Elt F)) :
    after hostOps0 W (Proc.devRef .tc main_v1) = truncf .bf16 (W (Proc.devRef .tc main_arg3)) bitsLt_bf16_f32 := by
  after_results <;> rfl

/-- Before the third region: the second region's output, narrowed. -/
theorem second_left (W : Valuation τ sig (Elt F)) :
    after hostOps2 W (Proc.devRef .tc main_v46) = truncf .bf16 (W (Proc.devRef .tc main_v45)) bitsLt_bf16_f32 := by
  after_results <;> rfl

/-- Before the third region: the second weight argument, narrowed. -/
theorem second_right (W : Valuation τ sig (Elt F)) :
    after hostOps2 W (Proc.devRef .tc main_v47) = truncf .bf16 (W (Proc.devRef .tc main_arg5)) bitsLt_bf16_f32 := by
  after_results <;> rfl

theorem first_keeps_main_arg1 (W : Valuation τ sig (Elt F)) :
    after hostOps0 W (Proc.devRef .tc main_arg1) = W (Proc.devRef .tc main_arg1) :=
  after_of_forall_not_mem (b := Proc.devRef .tc main_arg1) (hostOps0 (F := F)) _ (by not_written_b)

theorem first_keeps_main_arg2 (W : Valuation τ sig (Elt F)) :
    after hostOps0 W (Proc.devRef .tc main_arg2) = W (Proc.devRef .tc main_arg2) :=
  after_of_forall_not_mem (b := Proc.devRef .tc main_arg2) (hostOps0 (F := F)) _ (by not_written_b)

theorem first_keeps_main_arg4 (W : Valuation τ sig (Elt F)) :
    after hostOps0 W (Proc.devRef .tc main_arg4) = W (Proc.devRef .tc main_arg4) :=
  after_of_forall_not_mem (b := Proc.devRef .tc main_arg4) (hostOps0 (F := F)) _ (by not_written_b)

theorem first_keeps_main_arg5 (W : Valuation τ sig (Elt F)) :
    after hostOps0 W (Proc.devRef .tc main_arg5) = W (Proc.devRef .tc main_arg5) :=
  after_of_forall_not_mem (b := Proc.devRef .tc main_arg5) (hostOps0 (F := F)) _ (by not_written_b)

theorem first_keeps_main_arg6 (W : Valuation τ sig (Elt F)) :
    after hostOps0 W (Proc.devRef .tc main_arg6) = W (Proc.devRef .tc main_arg6) :=
  after_of_forall_not_mem (b := Proc.devRef .tc main_arg6) (hostOps0 (F := F)) _ (by not_written_b)

theorem second_keeps_main_arg1 (W : Valuation τ sig (Elt F)) :
    after hostOps2 W (Proc.devRef .tc main_arg1) = W (Proc.devRef .tc main_arg1) :=
  after_of_forall_not_mem (b := Proc.devRef .tc main_arg1) (hostOps2 (F := F)) _ (by not_written_b)

theorem second_keeps_main_arg2 (W : Valuation τ sig (Elt F)) :
    after hostOps2 W (Proc.devRef .tc main_arg2) = W (Proc.devRef .tc main_arg2) :=
  after_of_forall_not_mem (b := Proc.devRef .tc main_arg2) (hostOps2 (F := F)) _ (by not_written_b)

theorem second_keeps_main_arg6 (W : Valuation τ sig (Elt F)) :
    after hostOps2 W (Proc.devRef .tc main_arg6) = W (Proc.devRef .tc main_arg6) :=
  after_of_forall_not_mem (b := Proc.devRef .tc main_arg6) (hostOps2 (F := F)) _ (by not_written_b)

theorem second_keeps_main_v45 (W : Valuation τ sig (Elt F)) :
    after hostOps2 W (Proc.devRef .tc main_v45) = W (Proc.devRef .tc main_v45) :=
  after_of_forall_not_mem (b := Proc.devRef .tc main_v45) (hostOps2 (F := F)) _ (by not_written_b)

end Cert.KernelIdeal.Stretch

end
-- ==== Proof.StretchC.lean ====
/-
  The host operations between the third and the fourth kernel region, read at the buffers the fourth region loads.

  From any contents W of the buffers, the 58 operations leave: in the data buffer, the third region's output carried from
  nodes to hyperedges and back (each hyperedge's sum divided by its size); in the scale buffer, the reciprocal node counts
  reshaped to a column; in the bias buffer, the second bias argument reshaped to a row. They do not write the second
  region's output.
-/
import proofs.«121961_j88364657148583_1_alg».proof.Proof.Gen.KernelIdeal.Launch
import proofs.«121961_j88364657148583_1_alg».proof.Proof.Chain
import Idealize.ShloMosaic.Lib.StableHlo.Run
import Idealize.ShloMosaic.Lib.Tactic

set_option maxRecDepth 16384

noncomputable section

namespace Cert.KernelIdeal.Stretch

open Cert.KernelIdeal Cert.KernelIdeal.Gen Cert.KernelIdeal.Chain
open Idealize.ShloMosaic Idealize.ShloMosaic.TcCoe Idealize.SL.Sem Idealize.ShloMosaic.StableHlo

variable {F : FTy → Type} [FloatOps F]

/-- No operation of the stretch at hand writes the buffer at hand: every operation's one result buffer is another. -/
macro "not_written_c" : tactic => `(tactic| (
  refine List.forall_iff_forall_mem.mp ?_
  simp only [hostOps0, hostOps1, hostOps1_1, hostOps1_2, hostOps1_3, hostOps1_4, hostOps2, hostOps3, hostOps3_1, hostOps3_2,
    hostOps3_3, hostOps3_4, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The buffers' contents after the operations between the third and the fourth kernel region, from the contents W. -/
abbrev betweenC (W : Valuation τ sig (Elt F)) : Valuation τ sig (Elt F) :=
  after hostOps3_4 (after hostOps3_3 (after hostOps3_2 (after hostOps3_1 (after hostOps3 W))))

set_option maxHeartbeats 40000000 in
/-- The fourth region's data: the third region's output, there and back along the incidences. -/
theorem C_data (W : Valuation τ sig (Elt F)) :
    betweenC W (Proc.devRef .tc main_v88)
      = there_and_back64 (W (Proc.devRef .tc main_v48)) (W (Proc.devRef .tc main_arg1)) (W (Proc.devRef .tc main_arg2)) := by
  after_results <;> (try simp only [TRef.ofBuf, TRef.toBuf, cast_eq]) <;> rfl

set_option maxHeartbeats 4000000 in
/-- The fourth region's scale: the reciprocal node counts as a column. -/
theorem C_scale (W : Valuation τ sig (Elt F)) :
    betweenC W (Proc.devRef .tc main_v89)
      = shapeCast S8192x1 (recip (W (Proc.devRef .tc main_arg1))) shapeCasts_S8192_S8192x1 := by
  after_results <;> (try simp only [TRef.ofBuf, TRef.toBuf, cast_eq]) <;> rfl

set_option maxHeartbeats 4000000 in
/-- The fourth region's bias: the second bias argument as a row. -/
theorem C_bias (W : Valuation τ sig (Elt F)) :
    betweenC W (Proc.devRef .tc main_v90)
      = shapeCast S1x64 (W (Proc.devRef .tc main_arg6)) shapeCasts_S64_S1x64 := by
  after_results <;> (try simp only [TRef.ofBuf, TRef.toBuf, cast_eq]) <;> rfl

theorem C_keeps_main_v45 (W : Valuation τ sig (Elt F)) :
    betweenC W (Proc.devRef .tc main_v45) = W (Proc.devRef .tc main_v45) :=
  (after_of_forall_not_mem (b := Proc.devRef .tc main_v45) (hostOps3_4 (F := F)) _ (by not_written_c)).trans <|
  (after_of_forall_not_mem (b := Proc.devRef .tc main_v45) (hostOps3_3 (F := F)) _ (by not_written_c)).trans <|
  (after_of_forall_not_mem (b := Proc.devRef .tc main_v45) (hostOps3_2 (F := F)) _ (by not_written_c)).trans <|
  (after_of_forall_not_mem (b := Proc.devRef .tc main_v45) (hostOps3_1 (F := F)) _ (by not_written_c)).trans <|
  after_of_forall_not_mem (b := Proc.devRef .tc main_v45) (hostOps3 (F := F)) _ (by not_written_c)

end Cert.KernelIdeal.Stretch

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.WholeDot0.lean ====
/-
  The first kernel region as one whole-array function, at the ideal values.

  The region walks an 8192 × 1386 left factor in sixteen blocks of 512 rows; the 1386 × 4096 right factor is one block,
  the same at every point. At block t it multiplies rows 512·t … 512·t + 511 of the left factor by the whole right factor,
  accumulating into an all-zero block, and writes the 512 × 4096 product to the same rows of its output. Over the extended
  reals entry (p, k) of a block's product is the sum over q of left(p, q) · right(q, k), the zero accumulator adding
  nothing; row p of block t is row 512·t + p of the left factor, so that sum is entry (512·t + p, k) of the product of the
  two whole arrays. The sixteen output blocks cover all 8192 rows. So after the region the output array is the matrix
  product of its two input arrays, entry by entry one sum of products.
-/
import proofs.«121961_j88364657148583_1_alg».proof.Proof.Gen.KernelIdeal.Frame
import proofs.«121961_j88364657148583_1_alg».proof.Proof.LibDotPlain
import Idealize.ShloMosaic.Lib.Pipeline.Value
import Idealize.ShloMosaic.Lib.ValueIdx

set_option maxRecDepth 16384

noncomputable section

open scoped BigOperators

namespace Cert.KernelIdeal.Whole0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The matrix product of an 8192 × 1386 array and a 1386 × 4096 array over the extended reals: entry (r, k) is the sum
    over q of A(r, q) · B(q, k). -/
abbrev product (A : FVec Ideal S8192x1386 .bf16) (B : FVec Ideal S1386x4096 .bf16) : FVec Ideal S8192x4096 .f32 :=
  fun i => ∑ q : Fin 1386, A (ix2 (n0 := 8192) (n1 := 1386) (i 0) q) * B (ix2 (n0 := 1386) (n1 := 4096) q (i 1))

/-- The left factor as the region finds it, at its literal type. -/
abbrev left (c : Dev nD) : FVec Ideal S8192x1386 .bf16 := V c main_v0
/-- The right factor as the region finds it, at its literal type. -/
abbrev right (c : Dev nD) : FVec Ideal S1386x4096 .bf16 := V c main_v1

/-- The body on loaded blocks, at entry (p, k) of the block: the sum over q of the left block's (p, q) entry times the
    right block's (q, k) entry (the casts to a block's own shape change nothing; the product is accumulated into zeros). -/
theorem body_at (x0 : FVec Ideal S512x1386 .bf16) (x1 : FVec Ideal S1386x4096 .bf16) (p : Fin 512) (k : Fin 4096) :
    k0_pay1 (F := Ideal) x0 x1 (ix2 p k) = ∑ q : Fin 1386, x0 (ix2 p q) * x1 (ix2 q k) := by
  unfold k0_pay1
  simp only [shapeCast_self]
  show FloatOps.matmul (DotDims.plain 512 1386 4096) none x0 x1 (constant ⟨2, ![512, 4096]⟩ .f32 0x00000000#32) (ix2 p k) = _
  exact Cert.LibDotPlain.matmul_zero_plain 512 1386 4096 none x0 x1 p k

/-- The index maps at a grid point: the left block and the output block are the same 512 rows, the left block spans all
    1386 columns, the right factor's one block is the whole array, and the output block spans all 4096 columns. -/
theorem block_places : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every one of the sixteen row blocks is some grid point's. -/
theorem every_block : ∀ q : Fin 16, ∃ t : Fin cfg0.N, win0_2.index t = ![q.val, 0] :=
  (by decide +kernel : ∀ q : Fin 16, ∃ t : Fin grid0.N, win0_2.index t = ![q.val, 0])

/-- What point t writes back is block t of the product of the two arrays the region reads. -/
theorem written_eq (c : Dev nD) (t : Fin cfg0.N) :
    (dat0 V c).flushed 2 t = ((cfg0.win 2).blk t).view.read (Elt Ideal) (product (left V c) (right V c)) := by
  show (cfg0.win 2).cut (grid0.coords t) ((dat0 V c).after 2 t) = _
  rw [after0_2]
  unfold out0_2
  rw [View.canon_unit_zero origin]
  simp only [View.ld_unit_zero (S := S512x1386) origin, View.ld_unit_zero (S := S1386x4096) origin]
  obtain ⟨e0, e1, e2, e3, e4⟩ := block_places t
  funext j
  obtain ⟨p, k, rfl⟩ : ∃ (p : Fin 512) (k : Fin 4096), j = ix2 p k := ⟨j 0, j 1, eq_ix2 j⟩
  refine (body_at (iblk0 V c 0 t) (iblk0 V c 1 t) p k).trans ?_
  have hp : p.val < 512 := p.isLt
  have hk : k.val < 4096 := k.isLt
  show _ = ∑ q : Fin 1386, left V c (ix2 (n0 := 8192) (n1 := 1386) ((((cfg0.win 2).blk t).view.emb (ix2 p k)) 0) q)
      * right V c (ix2 (n0 := 1386) (n1 := 4096) q ((((cfg0.win 2).blk t).view.emb (ix2 p k)) 1))
  refine Finset.sum_congr rfl fun q _ => ?_
  have hq : q.val < 1386 := q.isLt
  have h0 : ((cfg0.win 0).blk t).view.emb (ix2 p q)
      = ix2 (n0 := 8192) (n1 := 1386) ((((cfg0.win 2).blk t).view.emb (ix2 p k)) 0) q := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 1386 + 1 * q.val = q.val; omega
  have h1 : ((cfg0.win 1).blk t).view.emb (ix2 q k)
      = ix2 (n0 := 1386) (n1 := 4096) q ((((cfg0.win 2).blk t).view.emb (ix2 p k)) 1) := by
    funext a; apply Fin.ext
    match a with
    | ⟨0, _⟩ => show win0_1.index t (0 : Fin 2) * 1386 + 1 * q.val = q.val; omega
    | ⟨1, _⟩ => show win0_1.index t (1 : Fin 2) * 4096 + 1 * k.val = win0_2.index t (1 : Fin 2) * 4096 + 1 * k.val; omega
  show left V c (((cfg0.win 0).blk t).view.emb (ix2 p q)) * right V c (((cfg0.win 1).blk t).view.emb (ix2 q k)) = _
  rw [h0, h1]

/-- An entry lies in point t's output block exactly when each coordinate lies in the block's range on its axis. -/
theorem mem_block (t : Fin cfg0.N) (i : S8192x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v2).slice (win0_2.rect t)).set ↔ _
  rw [View.set_slice_whole, Rect.mem_set_unit]
  exact Iff.rfl

/-- Every entry of the output array lies in some grid point's block: row r in block r / 512. -/
theorem all_rows (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := every_block ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- After the region its output array is the matrix product of the two arrays it reads. -/
theorem whole (c : Dev nD) : (dat0 V c).arrAt 2 cfg0.N = product (left V c) (right V c) :=
  (dat0 V c).arrAt_eq_of_cover 2 (product (left V c) (right V c)) (fun t _ => written_eq V c t) all_rows

end Cert.KernelIdeal.Whole0

end
-- ==== Proof.WholeDot2.lean ====
/-
  The third kernel region as one whole-array function, at the ideal values.

  The region walks an 8192 × 4096 left factor in eight blocks of 1024 rows; the 4096 × 64 right factor is one block, the
  same at every point. At block t it multiplies rows 1024·t … 1024·t + 1023 of the left factor by the whole right factor,
  accumulating into an all-zero block, and writes the 1024 × 64 product to the same rows of its output. Over the extended
  reals entry (p, k) of a block's product is the sum over q of left(p, q) · right(q, k), the zero accumulator adding
  nothing; row p of block t is row 1024·t + p of the left factor, so that sum is entry (1024·t + p, k) of the product of
  the two whole arrays. The eight output blocks cover all 8192 rows. So after the region the output array is the matrix
  product of its two input arrays, entry by entry one sum of products.
-/
import proofs.«121961_j88364657148583_1_alg».proof.Proof.Gen.KernelIdeal.Frame
import proofs.«121961_j88364657148583_1_alg».proof.Proof.LibDotPlain
import Idealize.ShloMosaic.Lib.Pipeline.Value
import Idealize.ShloMosaic.Lib.ValueIdx

set_option maxRecDepth 16384

noncomputable section

open scoped BigOperators

namespace Cert.KernelIdeal.Whole2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The matrix product of an 8192 × 4096 array and a 4096 × 64 array over the extended reals: entry (r, k) is the sum
    over q of A(r, q) · B(q, k). -/
abbrev product (A : FVec Ideal S8192x4096 .bf16) (B : FVec Ideal S4096x64 .bf16) : FVec Ideal S8192x64 .f32 :=
  fun i => ∑ q : Fin 4096, A (ix2 (n0 := 8192) (n1 := 4096) (i 0) q) * B (ix2 (n0 := 4096) (n1 := 64) q (i 1))

/-- The left factor as the region finds it, at its literal type. -/
abbrev left (c : Dev nD) : FVec Ideal S8192x4096 .bf16 := V c main_v46
/-- The right factor as the region finds it, at its literal type. -/
abbrev right (c : Dev nD) : FVec Ideal S4096x64 .bf16 := V c main_v47

/-- The body on loaded blocks, at entry (p, k) of the block: the sum over q of the left block's (p, q) entry times the
    right block's (q, k) entry (the casts to a block's own shape change nothing; the product is accumulated into zeros). -/
theorem body_at (x0 : FVec Ideal S1024x4096 .bf16) (x1 : FVec Ideal S4096x64 .bf16) (p : Fin 1024) (k : Fin 64) :
    k2_pay1 (F := Ideal) x0 x1 (ix2 p k) = ∑ q : Fin 4096, x0 (ix2 p q) * x1 (ix2 q k) := by
  unfold k2_pay1
  simp only [shapeCast_self]
  show FloatOps.matmul (DotDims.plain 1024 4096 64) none x0 x1 (constant ⟨2, ![1024, 64]⟩ .f32 0x00000000#32) (ix2 p k) = _
  exact Cert.LibDotPlain.matmul_zero_plain 1024 4096 64 none x0 x1 p k

/-- The index maps at a grid point: the left block and the output block are the same 1024 rows, the left block spans all
    4096 columns, the right factor's one block is the whole array, and the output block spans all 64 columns. -/
theorem block_places : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 :=
  (by decide +kernel : ∀ t : Fin grid2.N, _)

/-- Every one of the eight row blocks is some grid point's. -/
theorem every_block : ∀ q : Fin 8, ∃ t : Fin cfg2.N, win2_2.index t = ![q.val, 0] :=
  (by decide +kernel : ∀ q : Fin 8, ∃ t : Fin grid2.N, win2_2.index t = ![q.val, 0])

/-- What point t writes back is block t of the product of the two arrays the region reads. -/
theorem written_eq (c : Dev nD) (t : Fin cfg2.N) :
    (dat2 V c).flushed 2 t = ((cfg2.win 2).blk t).view.read (Elt Ideal) (product (left V c) (right V c)) := by
  show (cfg2.win 2).cut (grid2.coords t) ((dat2 V c).after 2 t) = _
  rw [after2_2]
  unfold out2_2
  rw [View.canon_unit_zero origin]
  simp only [View.ld_unit_zero (S := S1024x4096) origin, View.ld_unit_zero (S := S4096x64) origin]
  obtain ⟨e0, e1, e2, e3, e4⟩ := block_places t
  funext j
  obtain ⟨p, k, rfl⟩ : ∃ (p : Fin 1024) (k : Fin 64), j = ix2 p k := ⟨j 0, j 1, eq_ix2 j⟩
  refine (body_at (iblk2 V c 0 t) (iblk2 V c 1 t) p k).trans ?_
  have hp : p.val < 1024 := p.isLt
  have hk : k.val < 64 := k.isLt
  show _ = ∑ q : Fin 4096, left V c (ix2 (n0 := 8192) (n1 := 4096) ((((cfg2.win 2).blk t).view.emb (ix2 p k)) 0) q)
      * right V c (ix2 (n0 := 4096) (n1 := 64) q ((((cfg2.win 2).blk t).view.emb (ix2 p k)) 1))
  refine Finset.sum_congr rfl fun q _ => ?_
  have hq : q.val < 4096 := q.isLt
  have h0 : ((cfg2.win 0).blk t).view.emb (ix2 p q)
      = ix2 (n0 := 8192) (n1 := 4096) ((((cfg2.win 2).blk t).view.emb (ix2 p k)) 0) q := by
    funext a; apply Fin.ext
    match a with
    | ⟨0, _⟩ => show win2_0.index t (0 : Fin 2) * 1024 + 1 * p.val = win2_2.index t (0 : Fin 2) * 1024 + 1 * p.val; omega
    | ⟨1, _⟩ => show win2_0.index t (1 : Fin 2) * 4096 + 1 * q.val = q.val; omega
  have h1 : ((cfg2.win 1).blk t).view.emb (ix2 q k)
      = ix2 (n0 := 4096) (n1 := 64) q ((((cfg2.win 2).blk t).view.emb (ix2 p k)) 1) := by
    funext a; apply Fin.ext
    match a with
    | ⟨0, _⟩ => show win2_1.index t (0 : Fin 2) * 4096 + 1 * q.val = q.val; omega
    | ⟨1, _⟩ => show win2_1.index t (1 : Fin 2) * 64 + 1 * k.val = win2_2.index t (1 : Fin 2) * 64 + 1 * k.val; omega
  show left V c (((cfg2.win 0).blk t).view.emb (ix2 p q)) * right V c (((cfg2.win 1).blk t).view.emb (ix2 q k)) = _
  rw [h0, h1]

/-- An entry lies in point t's output block exactly when each coordinate lies in the block's range on its axis. -/
theorem mem_block (t : Fin cfg2.N) (i : S8192x64.Idx) :
    i ∈ ((cfg2.win 2).blk t).view.set ↔ ∀ a : Fin 2, win2_2.index t a * S1024x64.size a ≤ (i a).val ∧ (i a).val < win2_2.index t a * S1024x64.size a + S1024x64.size a := by
  show i ∈ ((View.whole main_v48).slice (win2_2.rect t)).set ↔ _
  rw [View.set_slice_whole, Rect.mem_set_unit]
  exact Iff.rfl

/-- Every entry of the output array lies in some grid point's block: row r in block r / 1024. -/
theorem all_rows (i : S8192x64.Idx) : ∃ t : Fin cfg2.N, (cfg2.win 2).flush t = true ∧ i ∈ ((cfg2.win 2).blk t).view.set := by
  have hi0 : (i 0).val < 8192 := (i 0).isLt
  have hi1 : (i 1).val < 64 := (i 1).isLt
  obtain ⟨t, ht⟩ := every_block ⟨(i 0).val / 1024, by omega⟩
  have q0 : win2_2.index t (0 : Fin 2) = (i 0).val / 1024 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 64 ≤ (i 1).val ∧ (i 1).val < win2_2.index t (1 : Fin 2) * 64 + 64; omega

/-- After the region its output array is the matrix product of the two arrays it reads. -/
theorem whole (c : Dev nD) : (dat2 V c).arrAt 2 cfg2.N = product (left V c) (right V c) :=
  (dat2 V c).arrAt_eq_of_cover 2 (product (left V c) (right V c)) (fun t _ => written_eq V c t) all_rows

end Cert.KernelIdeal.Whole2

end
-- ==== Proof.WholeScale1.lean ====
/-
  The second kernel region as one whole-array function.

  The region walks an 8192 × 4096 data array in sixteen blocks of 512 rows. At block t it loads rows 512·t … 512·t + 511 of the
  data, the same rows of a one-column scale array, and the whole one-row bias array; it multiplies each data row by that
  row's scale, adds the bias of each column, replaces every negative result by zero, and writes the block back to the same
  rows of its output. The output blocks cover all 8192 rows, and an entry's value depends only on the data at that entry,
  the scale of its row and the bias of its column. So after the region the output array is
  max (data(r, k) · scale(r) + bias(k), 0) at every entry (r, k), at any float instance: only the float operations' names
  are used, none of their laws.
-/
import proofs.«121961_j88364657148583_1_alg».proof.Proof.Gen.KernelIdeal.Frame
import Idealize.ShloMosaic.Lib.Pipeline.Value
import Idealize.ShloMosaic.Lib.ValueIdx

set_option maxRecDepth 16384

noncomputable section

namespace Cert.KernelIdeal.Whole1

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- Entry (r, k) of the result: the larger of zero and the data entry times the scale of row r plus the bias of column k.
    The scale is a column (one entry per row, read at (r, 0)), the bias a row (one entry per column, read at (0, k)). -/
abbrev rowScaledClamped (D : S8192x4096.Idx → Elt F .f32) (s : S8192x1.Idx → Elt F .f32) (b : S1x4096.Idx → Elt F .f32) :
    S8192x4096.Idx → Elt F .f32 :=
  fun i => FloatOps.maximumf
    (FloatOps.addf (FloatOps.mulf (D i) (s (ix2 (n0 := 8192) (n1 := 1) (i 0) 0))) (b (ix2 (n0 := 1) (n1 := 4096) 0 (i 1))))
    (FloatOps.ofBits .f32 0x00000000#32)

/-- The body on loaded blocks, at entry (p, q) of the block: the data block's entry times the scale block's entry of row p
    plus the bias block's entry of column q, clamped below at zero (the casts to a block's own shape change nothing; a
    broadcast reads its operand at the coordinate of the axis it keeps and at 0 on the axis of extent one; the zero the
    clamp compares with is the same word at every entry). -/
theorem body_at (x0 : Vec F S512x4096 .f32) (x1 : Vec F S512x1 .f32) (x2 : Vec F S1x4096 .f32) (p : Fin 512) (q : Fin 4096) :
    k1_pay1 x0 x1 x2 (ix2 p q)
      = FloatOps.maximumf (FloatOps.addf (FloatOps.mulf (x0 (ix2 p q)) (x1 (ix2 p 0))) (x2 (ix2 0 q)))
          (FloatOps.ofBits .f32 0x00000000#32) := by
  unfold k1_pay1
  simp only [shapeCast_self]
  show FloatOps.maximumf
      (FloatOps.addf (FloatOps.mulf (x0 (ix2 p q)) (broadcastTo S512x4096 x1 broadcasts_S512x1_S512x4096 (ix2 p q)))
        (broadcastTo S512x4096 x2 broadcasts_S1x4096_S512x4096 (ix2 p q)))
      (FloatOps.ofBits .f32 0x00000000#32) = _
  rw [broadcastTo_apply x1 broadcasts_S512x1_S512x4096 (ix2 p q) (ix2 p 0) (fun a => by match a with | ⟨0, _⟩ => rfl | ⟨1, _⟩ => rfl),
    broadcastTo_apply x2 broadcasts_S1x4096_S512x4096 (ix2 p q) (ix2 0 q) (fun a => by match a with | ⟨0, _⟩ => rfl | ⟨1, _⟩ => rfl)]

/-- The index maps at a grid point: the data block and the output block are the same 512 rows and all 4096 columns, the
    scale block is the same rows of the one-column array, and the bias block is the whole one-row array. -/
theorem block_places : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0 :=
  (by decide +kernel : ∀ t : Fin grid1.N, _)

/-- Every one of the sixteen row blocks is some grid point's. -/
theorem every_block : ∀ q : Fin 16, ∃ t : Fin cfg1.N, win1_3.index t = ![q.val, 0] :=
  (by decide +kernel : ∀ q : Fin 16, ∃ t : Fin grid1.N, win1_3.index t = ![q.val, 0])

/-- What point t writes back is block t of the row-scaled, biased, clamped array of the three arrays the region reads. -/
theorem written_eq (c : Dev nD) (t : Fin cfg1.N) :
    (dat1 V c).flushed 3 t
      = ((cfg1.win 3).blk t).view.read (Elt F) (rowScaledClamped (V c main_v42) (V c main_v43) (V c main_v44)) := by
  show (cfg1.win 3).cut (grid1.coords t) ((dat1 V c).after 3 t) = _
  rw [after1_3]
  unfold out1_3
  rw [View.canon_unit_zero origin]
  simp only [View.ld_unit_zero (S := S512x4096) origin, View.ld_unit_zero (S := S512x1) origin, View.ld_unit_zero (S := S1x4096) origin]
  obtain ⟨e0, e1, e2, e3, e4, e5, e6⟩ := block_places t
  funext j
  obtain ⟨p, q, rfl⟩ : ∃ (p : Fin 512) (q : Fin 4096), j = ix2 p q := ⟨j 0, j 1, eq_ix2 j⟩
  refine (body_at (iblk1 V c 0 t) (iblk1 V c 1 t) (iblk1 V c 2 t) p q).trans ?_
  have hp : p.val < 512 := p.isLt
  have hq : q.val < 4096 := q.isLt
  have h0 : ((cfg1.win 0).blk t).view.emb (ix2 p q) = ((cfg1.win 3).blk t).view.emb (ix2 p q) := by
    funext a; apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 4096 + 1 * q.val = win1_3.index t (1 : Fin 2) * 4096 + 1 * q.val; omega
  have h1 : ((cfg1.win 1).blk t).view.emb (ix2 p 0)
      = ix2 (n0 := 8192) (n1 := 1) ((((cfg1.win 3).blk t).view.emb (ix2 p q)) 0) 0 := by
    funext a; apply Fin.ext
    match a with
    | ⟨0, _⟩ => show win1_1.index t (0 : Fin 2) * 512 + 1 * p.val = win1_3.index t (0 : Fin 2) * 512 + 1 * p.val; omega
    | ⟨1, _⟩ => show win1_1.index t (1 : Fin 2) * 1 + 1 * 0 = 0; omega
  have h2 : ((cfg1.win 2).blk t).view.emb (ix2 0 q)
      = ix2 (n0 := 1) (n1 := 4096) 0 ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 4096 + 1 * q.val = win1_3.index t (1 : Fin 2) * 4096 + 1 * q.val; omega
  show FloatOps.maximumf
      (FloatOps.addf (FloatOps.mulf (V c main_v42 (((cfg1.win 0).blk t).view.emb (ix2 p q))) (V c main_v43 (((cfg1.win 1).blk t).view.emb (ix2 p 0))))
        (V c main_v44 (((cfg1.win 2).blk t).view.emb (ix2 0 q))))
      (FloatOps.ofBits .f32 0x00000000#32)
    = FloatOps.maximumf
      (FloatOps.addf (FloatOps.mulf (V c main_v42 (((cfg1.win 3).blk t).view.emb (ix2 p q)))
          (V c main_v43 (ix2 (n0 := 8192) (n1 := 1) ((((cfg1.win 3).blk t).view.emb (ix2 p q)) 0) 0)))
        (V c main_v44 (ix2 (n0 := 1) (n1 := 4096) 0 ((((cfg1.win 3).blk t).view.emb (ix2 p q)) 1))))
      (FloatOps.ofBits .f32 0x00000000#32)
  rw [h0, h1, h2]

/-- An entry lies in point t's output block exactly when each coordinate lies in the block's range on its axis. -/
theorem mem_block (t : Fin cfg1.N) (i : S8192x4096.Idx) :
    i ∈ ((cfg1.win 3).blk t).view.set ↔ ∀ a : Fin 2, win1_3.index t a * S512x4096.size a ≤ (i a).val ∧ (i a).val < win1_3.index t a * S512x4096.size a + S512x4096.size a := by
  show i ∈ ((View.whole main_v45).slice (win1_3.rect t)).set ↔ _
  rw [View.set_slice_whole, Rect.mem_set_unit]
  exact Iff.rfl

/-- Every entry of the output array lies in some grid point's block: row r in block r / 512. -/
theorem all_rows (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := every_block ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 4096 ≤ (i 1).val ∧ (i 1).val < win1_3.index t (1 : Fin 2) * 4096 + 4096; omega

/-- After the region its output array is the row-scaled, biased, clamped array of the three arrays it reads. -/
theorem whole (c : Dev nD) : (dat1 V c).arrAt 3 cfg1.N = rowScaledClamped (V c main_v42) (V c main_v43) (V c main_v44) :=
  (dat1 V c).arrAt_eq_of_cover 3 (rowScaledClamped (V c main_v42) (V c main_v43) (V c main_v44)) (fun t _ => written_eq V c t) all_rows

end Cert.KernelIdeal.Whole1

end
-- ==== Proof.WholeScale3.lean ====
/-
  The fourth kernel region as one whole-array function.

  The region walks an 8192 × 64 data array in four blocks of 2048 rows. At block t it loads rows 2048·t … 2048·t + 2047 of the
  data, the same rows of a one-column scale array, and the whole one-row bias array; it multiplies each data row by that
  row's scale, adds the bias of each column, and writes the block back to the same rows of its output. The output blocks
  cover all 8192 rows, and an entry's value depends only on the data at that entry, the scale of its row and the bias of
  its column. So after the region the output array is data(r, k) · scale(r) + bias(k) at every entry (r, k), at any float
  instance: only the float operations' names are used, none of their laws.
-/
import proofs.«121961_j88364657148583_1_alg».proof.Proof.Gen.KernelIdeal.Frame
import Idealize.ShloMosaic.Lib.Pipeline.Value
import Idealize.ShloMosaic.Lib.ValueIdx

set_option maxRecDepth 16384

noncomputable section

namespace Cert.KernelIdeal.Whole3

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- Entry (r, k) of the result: the data entry times the scale of row r plus the bias of column k. The scale
    is a column (one entry per row, read at (r, 0)), the bias a row (one entry per column, read at (0, k)). -/
abbrev rowScaled (D : S8192x64.Idx → Elt F .f32) (s : S8192x1.Idx → Elt F .f32) (b : S1x64.Idx → Elt F .f32) :
    S8192x64.Idx → Elt F .f32 :=
  fun i => FloatOps.addf (FloatOps.mulf (D i) (s (ix2 (n0 := 8192) (n1 := 1) (i 0) 0))) (b (ix2 (n0 := 1) (n1 := 64) 0 (i 1)))

/-- The body on loaded blocks, at entry (p, q) of the block: the data block's entry times the scale block's entry of row p
    plus the bias block's entry of column q (the casts to a block's own shape change nothing; a broadcast reads its
    operand at the coordinate of the axis it keeps and at 0 on the axis of extent one). -/
theorem body_at (x0 : Vec F S2048x64 .f32) (x1 : Vec F S2048x1 .f32) (x2 : Vec F S1x64 .f32) (p : Fin 2048) (q : Fin 64) :
    k3_pay1 x0 x1 x2 (ix2 p q)
      = FloatOps.addf (FloatOps.mulf (x0 (ix2 p q)) (x1 (ix2 p 0))) (x2 (ix2 0 q)) := by
  unfold k3_pay1
  simp only [shapeCast_self]
  show FloatOps.addf (FloatOps.mulf (x0 (ix2 p q)) (broadcastTo S2048x64 x1 broadcasts_S2048x1_S2048x64 (ix2 p q)))
      (broadcastTo S2048x64 x2 broadcasts_S1x64_S2048x64 (ix2 p q)) = _
  rw [broadcastTo_apply x1 broadcasts_S2048x1_S2048x64 (ix2 p q) (ix2 p 0) (fun a => by match a with | ⟨0, _⟩ => rfl | ⟨1, _⟩ => rfl),
    broadcastTo_apply x2 broadcasts_S1x64_S2048x64 (ix2 p q) (ix2 0 q) (fun a => by match a with | ⟨0, _⟩ => rfl | ⟨1, _⟩ => rfl)]

/-- The index maps at a grid point: the data block and the output block are the same 2048 rows and all 64 columns, the
    scale block is the same rows of the one-column array, and the bias block is the whole one-row array. -/
theorem block_places : ∀ t : Fin cfg3.N, win3_0.index t (0 : Fin 2) = win3_3.index t (0 : Fin 2)
    ∧ win3_0.index t (1 : Fin 2) = 0 ∧ win3_3.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0 :=
  (by decide +kernel : ∀ t : Fin grid3.N, _)

/-- Every one of the 4 row blocks is some grid point's. -/
theorem every_block : ∀ q : Fin 4, ∃ t : Fin cfg3.N, win3_3.index t = ![q.val, 0] :=
  (by decide +kernel : ∀ q : Fin 4, ∃ t : Fin grid3.N, win3_3.index t = ![q.val, 0])

/-- What point t writes back is block t of the row-scaled, biased array of the three arrays the region reads. -/
theorem written_eq (c : Dev nD) (t : Fin cfg3.N) :
    (dat3 V c).flushed 3 t = ((cfg3.win 3).blk t).view.read (Elt F) (rowScaled (V c main_v88) (V c main_v89) (V c main_v90)) := by
  show (cfg3.win 3).cut (grid3.coords t) ((dat3 V c).after 3 t) = _
  rw [after3_3]
  unfold out3_3
  rw [View.canon_unit_zero origin]
  simp only [View.ld_unit_zero (S := S2048x64) origin, View.ld_unit_zero (S := S2048x1) origin, View.ld_unit_zero (S := S1x64) origin]
  obtain ⟨e0, e1, e2, e3, e4, e5, e6⟩ := block_places t
  funext j
  obtain ⟨p, q, rfl⟩ : ∃ (p : Fin 2048) (q : Fin 64), j = ix2 p q := ⟨j 0, j 1, eq_ix2 j⟩
  refine (body_at (iblk3 V c 0 t) (iblk3 V c 1 t) (iblk3 V c 2 t) p q).trans ?_
  have hp : p.val < 2048 := p.isLt
  have hq : q.val < 64 := q.isLt
  have h0 : ((cfg3.win 0).blk t).view.emb (ix2 p q) = ((cfg3.win 3).blk t).view.emb (ix2 p q) := by
    funext a; apply Fin.ext
    match a with
    | ⟨0, _⟩ => show win3_0.index t (0 : Fin 2) * 2048 + 1 * p.val = win3_3.index t (0 : Fin 2) * 2048 + 1 * p.val; omega
    | ⟨1, _⟩ => show win3_0.index t (1 : Fin 2) * 64 + 1 * q.val = win3_3.index t (1 : Fin 2) * 64 + 1 * q.val; omega
  have h1 : ((cfg3.win 1).blk t).view.emb (ix2 p 0)
      = ix2 (n0 := 8192) (n1 := 1) ((((cfg3.win 3).blk t).view.emb (ix2 p q)) 0) 0 := by
    funext a; apply Fin.ext
    match a with
    | ⟨0, _⟩ => show win3_1.index t (0 : Fin 2) * 2048 + 1 * p.val = win3_3.index t (0 : Fin 2) * 2048 + 1 * p.val; omega
    | ⟨1, _⟩ => show win3_1.index t (1 : Fin 2) * 1 + 1 * 0 = 0; omega
  have h2 : ((cfg3.win 2).blk t).view.emb (ix2 0 q)
      = ix2 (n0 := 1) (n1 := 64) 0 ((((cfg3.win 3).blk t).view.emb (ix2 p q)) 1) := by
    funext a; apply Fin.ext
    match a with
    | ⟨0, _⟩ => show win3_2.index t (0 : Fin 2) * 1 + 1 * 0 = 0; omega
    | ⟨1, _⟩ => show win3_2.index t (1 : Fin 2) * 64 + 1 * q.val = win3_3.index t (1 : Fin 2) * 64 + 1 * q.val; omega
  show FloatOps.addf (FloatOps.mulf (V c main_v88 (((cfg3.win 0).blk t).view.emb (ix2 p q))) (V c main_v89 (((cfg3.win 1).blk t).view.emb (ix2 p 0))))
      (V c main_v90 (((cfg3.win 2).blk t).view.emb (ix2 0 q)))
    = FloatOps.addf (FloatOps.mulf (V c main_v88 (((cfg3.win 3).blk t).view.emb (ix2 p q)))
        (V c main_v89 (ix2 (n0 := 8192) (n1 := 1) ((((cfg3.win 3).blk t).view.emb (ix2 p q)) 0) 0)))
      (V c main_v90 (ix2 (n0 := 1) (n1 := 64) 0 ((((cfg3.win 3).blk t).view.emb (ix2 p q)) 1)))
  rw [h0, h1, h2]

/-- An entry lies in point t's output block exactly when each coordinate lies in the block's range on its axis. -/
theorem mem_block (t : Fin cfg3.N) (i : S8192x64.Idx) :
    i ∈ ((cfg3.win 3).blk t).view.set ↔ ∀ a : Fin 2, win3_3.index t a * S2048x64.size a ≤ (i a).val ∧ (i a).val < win3_3.index t a * S2048x64.size a + S2048x64.size a := by
  show i ∈ ((View.whole main_v91).slice (win3_3.rect t)).set ↔ _
  rw [View.set_slice_whole, Rect.mem_set_unit]
  exact Iff.rfl

/-- Every entry of the output array lies in some grid point's block: row r in block r / 2048. -/
theorem all_rows (i : S8192x64.Idx) : ∃ t : Fin cfg3.N, (cfg3.win 3).flush t = true ∧ i ∈ ((cfg3.win 3).blk t).view.set := by
  have hi0 : (i 0).val < 8192 := (i 0).isLt
  have hi1 : (i 1).val < 64 := (i 1).isLt
  obtain ⟨t, ht⟩ := every_block ⟨(i 0).val / 2048, by omega⟩
  have q0 : win3_3.index t (0 : Fin 2) = (i 0).val / 2048 := congrFun ht 0
  have q1 : win3_3.index t (1 : Fin 2) = 0 := congrFun ht 1
  refine ⟨t, flush3_3 t, ?_⟩
  rw [mem_block]
  intro a
  match a with
  | ⟨0, _⟩ => show win3_3.index t (0 : Fin 2) * 2048 ≤ (i 0).val ∧ (i 0).val < win3_3.index t (0 : Fin 2) * 2048 + 2048; omega
  | ⟨1, _⟩ => show win3_3.index t (1 : Fin 2) * 64 ≤ (i 1).val ∧ (i 1).val < win3_3.index t (1 : Fin 2) * 64 + 64; omega

/-- After the region its output array is the row-scaled, biased array of the three arrays it reads. -/
theorem whole (c : Dev nD) : (dat3 V c).arrAt 3 cfg3.N = rowScaled (V c main_v88) (V c main_v89) (V c main_v90) :=
  (dat3 V c).arrAt_eq_of_cover 3 (rowScaled (V c main_v88) (V c main_v89) (V c main_v90)) (fun t _ => written_eq V c t) all_rows

end Cert.KernelIdeal.Whole3

end
-- ==== Proof.WholeTanh4.lean ====
/-
  The last kernel region as one whole-array function.

  The region walks the 8192 × 64 array in four blocks of 2048 rows; at block t it loads rows 2048·t … 2048·t + 2047 of its
  input array, applies the hyperbolic tangent entry by entry, and writes the result back to the same rows of its output
  array. Input and output blocks sit at the same place (the two index maps agree at every point), the four blocks
  together cover all 8192 rows, and the value written at an entry depends only on the input at that entry. So after the
  region the output array is the entrywise hyperbolic tangent of the input array, whatever the float instance.
-/
import proofs.«121961_j88364657148583_1_alg».proof.Proof.Gen.KernelIdeal.Frame
import Idealize.ShloMosaic.Lib.Pipeline.Value

set_option maxRecDepth 16384

noncomputable section

namespace Cert.KernelIdeal.Whole4

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The entrywise hyperbolic tangent of a whole 8192 × 64 array. -/
abbrev tanhAll (a : S8192x64.Idx → Elt F .f32) : S8192x64.Idx → Elt F .f32 := fun i => FloatOps.tanh (a i)

/-- On a loaded block the body computes the entrywise hyperbolic tangent (its cast to the block's own shape changes
    nothing). -/
theorem body_eq (x0 : Vec F S2048x64 .f32) : k4_pay1 x0 = tanh x0 := by
  unfold k4_pay1
  rw [shapeCast_self]

/-- At every grid point the input block and the output block are the same rows: block t starts at row 2048·t, column 0. -/
theorem same_rows : ∀ t : Fin cfg4.N, win4_0.index t (0 : Fin 2) = win4_1.index t (0 : Fin 2)
    ∧ win4_0.index t (1 : Fin 2) = win4_1.index t (1 : Fin 2)
    ∧ win4_1.index t (0 : Fin 2) ≤ 3 ∧ win4_1.index t (1 : Fin 2) = 0 :=
  (by decide +kernel : ∀ t : Fin grid4.N, _)

/-- Every one of the four row blocks is some grid point's. -/
theorem every_block : ∀ q : Fin 4, ∃ t : Fin cfg4.N, win4_1.index t = ![q.val, 0] :=
  (by decide +kernel : ∀ q : Fin 4, ∃ t : Fin grid4.N, win4_1.index t = ![q.val, 0])

/-- What point t writes back is block t of the entrywise hyperbolic tangent of the input array. -/
theorem written_eq (c : Dev nD) (t : Fin cfg4.N) :
    (dat4 V c).flushed 1 t = ((cfg4.win 1).blk t).view.read (Elt F) (tanhAll (V c main_v91)) := by
  show (cfg4.win 1).cut (grid4.coords t) ((dat4 V c).after 1 t) = _
  rw [after4_1]
  unfold out4_1
  rw [View.canon_unit_zero origin]
  simp only [View.ld_unit_zero (S := S2048x64) origin]
  rw [body_eq]
  obtain ⟨e0, e1, e2, e3⟩ := same_rows t
  funext j
  show FloatOps.tanh (V c main_v91 (((cfg4.win 0).blk t).view.emb j)) = FloatOps.tanh (V c main_v91 (((cfg4.win 1).blk t).view.emb j))
  have h0 : ((cfg4.win 0).blk t).view.emb j = ((cfg4.win 1).blk t).view.emb j := by
    funext a; apply Fin.ext
    match a with
    | ⟨0, _⟩ => show win4_0.index t (0 : Fin 2) * 2048 + 1 * (j 0).val = win4_1.index t (0 : Fin 2) * 2048 + 1 * (j 0).val; omega
    | ⟨1, _⟩ => show win4_0.index t (1 : Fin 2) * 64 + 1 * (j 1).val = win4_1.index t (1 : Fin 2) * 64 + 1 * (j 1).val; omega
  rw [h0]

/-- An entry lies in point t's output block exactly when each coordinate lies in the block's range on its axis. -/
theorem mem_block (t : Fin cfg4.N) (i : S8192x64.Idx) :
    i ∈ ((cfg4.win 1).blk t).view.set ↔ ∀ a : Fin 2, win4_1.index t a * S2048x64.size a ≤ (i a).val ∧ (i a).val < win4_1.index t a * S2048x64.size a + S2048x64.size a := by
  show i ∈ ((View.whole main_v92).slice (win4_1.rect t)).set ↔ _
  rw [View.set_slice_whole, Rect.mem_set_unit]
  exact Iff.rfl

/-- Every entry of the output array lies in some grid point's block: row r in block r / 2048. -/
theorem all_rows (i : S8192x64.Idx) : ∃ t : Fin cfg4.N, (cfg4.win 1).flush t = true ∧ i ∈ ((cfg4.win 1).blk t).view.set := by
  have hi0 : (i 0).val < 8192 := (i 0).isLt
  have hi1 : (i 1).val < 64 := (i 1).isLt
  obtain ⟨t, ht⟩ := every_block ⟨(i 0).val / 2048, by omega⟩
  have q0 : win4_1.index t (0 : Fin 2) = (i 0).val / 2048 := congrFun ht 0
  have q1 : win4_1.index t (1 : Fin 2) = 0 := congrFun ht 1
  refine ⟨t, flush4_1 t, ?_⟩
  rw [mem_block]
  intro a
  match a with
  | ⟨0, _⟩ => show win4_1.index t (0 : Fin 2) * 2048 ≤ (i 0).val ∧ (i 0).val < win4_1.index t (0 : Fin 2) * 2048 + 2048; omega
  | ⟨1, _⟩ => show win4_1.index t (1 : Fin 2) * 64 ≤ (i 1).val ∧ (i 1).val < win4_1.index t (1 : Fin 2) * 64 + 64; omega

/-- After the region its output array is the entrywise hyperbolic tangent of its input array. -/
theorem whole (c : Dev nD) : (dat4 V c).arrAt 1 cfg4.N = tanhAll (V c main_v91) :=
  (dat4 V c).arrAt_eq_of_cover 1 (tanhAll (V c main_v91)) (fun t _ => written_eq V c t) all_rows

end Cert.KernelIdeal.Whole4

end
-- ==== Proof.LibRowCol.lean ====
/-
  A vector along the rows or along the columns of a matrix, read at one entry.

  A vector of length a can be laid out as the one column of an a × 1 array (a cast that keeps the row-major order), and
  that column can be repeated over b columns; at entry (r, k) either way one reads the vector's entry r. A vector of
  length b can be laid out as the one row of a 1 × b array and that row repeated over a rows; at entry (r, k) one reads
  the vector's entry k. These are statements about indices only; the element type plays no part.
-/
import Idealize.ShloMosaic.Lib.Pipeline.Value
import Idealize.ShloMosaic.Lib.ValueIdx

namespace Cert.LibRowCol

open Idealize.ShloMosaic Idealize.ShloMosaic.ValueIdx

variable {α : Type}

/-- A length-a vector cast to an a × 1 column reads, at (r, u), the vector's entry r, whatever the unit coordinate u: the
    position of (r, u) in row-major order is r · 1 + u = r. -/
theorem column_cast_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A length-a vector broadcast along axis 0 of an a × 1 column reads, at (r, u), the vector's entry r. -/
theorem column_bcast_apply {a : ℕ} (x : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h x (ix2 r u) = x (ix1 r) :=
  broadcastInDim_apply ![0] h x (ix2 r u) (ix1 r) (fun d => by
    match d with
    | ⟨0, _⟩ =>
      show r.val = if a = 1 then 0 else r.val
      have := r.isLt
      split <;> omega)

/-- An a × 1 column repeated over b columns reads, at (r, k), the column's entry (r, 0). -/
theorem columns_bcast_apply {a b : ℕ} (y : (⟨2, ![a, 1]⟩ : Shape).Idx → α)
    (h : (⟨2, ![a, 1]⟩ : Shape).BroadcastsInDim ⟨2, ![a, b]⟩ ![0, 1]) (r : Fin a) (k : Fin b) :
    broadcastInDim ⟨2, ![a, b]⟩ ![0, 1] h y (ix2 r k) = y (ix2 r 0) :=
  broadcastInDim_apply ![0, 1] h y (ix2 r k) (ix2 r 0) (fun d => by
    match d with
    | ⟨0, _⟩ =>
      show r.val = if a = 1 then 0 else r.val
      have := r.isLt
      split <;> omega
    | ⟨1, _⟩ => rfl)

/-- A length-b vector broadcast along axis 1 of a 1 × b row reads, at (u, k), the vector's entry k. -/
theorem row_bcast_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) :=
  broadcastInDim_apply ![1] h x (ix2 u k) (ix1 k) (fun d => by
    match d with
    | ⟨0, _⟩ =>
      show k.val = if b = 1 then 0 else k.val
      have := k.isLt
      split <;> omega)

/-- A 1 × b row repeated over a rows reads, at (r, k), the row's entry (0, k). -/
theorem rows_bcast_apply {a b : ℕ} (y : (⟨2, ![1, b]⟩ : Shape).Idx → α)
    (h : (⟨2, ![1, b]⟩ : Shape).BroadcastsInDim ⟨2, ![a, b]⟩ ![0, 1]) (r : Fin a) (k : Fin b) :
    broadcastInDim ⟨2, ![a, b]⟩ ![0, 1] h y (ix2 r k) = y (ix2 0 k) :=
  broadcastInDim_apply ![0, 1] h y (ix2 r k) (ix2 0 k) (fun d => by
    match d with
    | ⟨0, _⟩ => rfl
    | ⟨1, _⟩ =>
      show k.val = if b = 1 then 0 else k.val
      have := k.isLt
      split <;> omega)

end Cert.LibRowCol
-- ==== Proof.Bridge.lean ====
/-
  Where the two programs spell one stage differently: the stage's two spellings are one function.

  Three kinds of stage differ between the kernel's program and the reference. (1) The matrix products: the kernel narrows
  both factors to the shorter float format and multiplies block by block into zeros, the reference multiplies the factors
  as they are; over the extended reals narrowing changes nothing and both give, at entry (r, k), the sum over q of
  left(r, q) · right(q, k). (2) The scaling of rows and the bias: the kernel reads a column of scales and a row of biases
  inside its region, the reference broadcasts the scales along the rows and the biases along the columns and multiplies
  and adds whole arrays; at entry (r, k) both are data(r, k) · scale(r) + bias(k), with the same clamp at zero where there
  is one — no law of arithmetic is used, the float instance is arbitrary. (3) The last stage: the kernel takes the
  hyperbolic tangent, the reference the hyperbolic tangent of one times its argument; over the extended reals one times
  x is x, and the host's and the kernel's hyperbolic tangent are the same function.
-/
import proofs.«121961_j88364657148583_1_alg».proof.Proof.WholeDot0
import proofs.«121961_j88364657148583_1_alg».proof.Proof.WholeDot2
import proofs.«121961_j88364657148583_1_alg».proof.Proof.WholeScale1
import proofs.«121961_j88364657148583_1_alg».proof.Proof.WholeScale3
import proofs.«121961_j88364657148583_1_alg».proof.Proof.WholeTanh4
import proofs.«121961_j88364657148583_1_alg».proof.Proof.RefValue
import proofs.«121961_j88364657148583_1_alg».proof.Proof.LibRowCol
import proofs.«121961_j88364657148583_1_alg».proof.Proof.LibDotPlain
import Idealize.ShloMosaic.Lib.IdealHost
import Idealize.ShloMosaic.Lib.ValueLayout

set_option maxRecDepth 16384

noncomputable section

open scoped BigOperators

namespace Cert.Bridge

open Idealize.ShloMosaic Idealize.ShloMosaic.ValueIdx
open Cert.KernelIdeal Cert.KernelIdeal.Gen

/-! ## The matrix products, at the ideal values -/

/-- The first product: the kernel's, of the narrowed factors, is the reference's, of the factors as they are. -/
theorem product1_eq (x : FVec Ideal S8192x1386 .f32) (w : FVec Ideal S1386x4096 .f32) :
    Cert.KernelIdeal.Whole0.product (truncf .bf16 x bitsLt_bf16_f32) (truncf .bf16 w bitsLt_bf16_f32)
      = Host.dotGeneral Cert.ReferenceIdeal.dot_S8192x1386_S1386x4096_S8192x4096_1_0_0_1_n_n none x w := by
  funext i
  obtain ⟨p, k, rfl⟩ : ∃ (p : Fin 8192) (k : Fin 4096), i = ix2 p k := ⟨i 0, i 1, eq_ix2 i⟩
  show ∑ q : Fin 1386, x (ix2 p q) * w (ix2 q k)
    = FloatOps.dotGeneral (DotDims.plain 8192 1386 4096) none .single x w (ix2 p k)
  exact (Cert.LibDotPlain.dotGeneral_plain 8192 1386 4096 none .single x w p k).symm

/-- The second product: the kernel's, of the narrowed factors, is the reference's, of the factors as they are. -/
theorem product2_eq (x : FVec Ideal S8192x4096 .f32) (w : FVec Ideal S4096x64 .f32) :
    Cert.KernelIdeal.Whole2.product (truncf .bf16 x bitsLt_bf16_f32) (truncf .bf16 w bitsLt_bf16_f32)
      = Host.dotGeneral Cert.ReferenceIdeal.dot_S8192x4096_S4096x64_S8192x64_1_0_0_1_n_n none x w := by
  funext i
  obtain ⟨p, k, rfl⟩ : ∃ (p : Fin 8192) (k : Fin 64), i = ix2 p k := ⟨i 0, i 1, eq_ix2 i⟩
  show ∑ q : Fin 4096, x (ix2 p q) * w (ix2 q k)
    = FloatOps.dotGeneral (DotDims.plain 8192 4096 64) none .single x w (ix2 p k)
  exact (Cert.LibDotPlain.dotGeneral_plain 8192 4096 64 none .single x w p k).symm

/-! ## Row scales and column biases, at any float instance -/

section
variable {F : FTy → Type} [FloatOps F]

/-- The second region's function of the data, the scales laid out as a column and the biases laid out as a row is the
    reference's: rows scaled, bias added, negative entries replaced by zero. -/
theorem scaled1_eq (D : Vec F S8192x4096 .f32) (s : Vec F S8192 .f32) (b : Vec F S4096 .f32) :
    Cert.KernelIdeal.Whole1.rowScaledClamped D (shapeCast S8192x1 s shapeCasts_S8192_S8192x1) (shapeCast S1x4096 b shapeCasts_S4096_S1x4096)
      = maximumf (Cert.ReferenceIdeal.Results.plusBias4096 (Cert.ReferenceIdeal.Chain.rows4096 D s) b)
          (broadcastInDim Cert.ReferenceIdeal.S8192x4096 ![] Cert.ReferenceIdeal.Gen.bcast_S_S8192x4096
            (constant Cert.ReferenceIdeal.S_ .f32 0x00000000#32)) := by
  funext i
  obtain ⟨p, k, rfl⟩ : ∃ (p : Fin 8192) (k : Fin 4096), i = ix2 p k := ⟨i 0, i 1, eq_ix2 i⟩
  show FloatOps.maximumf
      (FloatOps.addf (FloatOps.mulf (D (ix2 p k)) (shapeCast ⟨2, ![8192, 1]⟩ s shapeCasts_S8192_S8192x1 (ix2 p 0)))
        (shapeCast ⟨2, ![1, 4096]⟩ b shapeCasts_S4096_S1x4096 (ix2 0 k)))
      (FloatOps.ofBits .f32 0x00000000#32)
    = FloatOps.maximumf
      (FloatOps.addf
        (FloatOps.mulf (D (ix2 p k))
          (broadcastInDim ⟨2, ![8192, 4096]⟩ ![0, 1] Cert.ReferenceIdeal.Gen.bcast_S8192x1_S8192x4096_0_1
            (broadcastInDim ⟨2, ![8192, 1]⟩ ![0] Cert.ReferenceIdeal.Gen.bcast_S8192_S8192x1_0 s) (ix2 p k)))
        (broadcastInDim ⟨2, ![8192, 4096]⟩ ![0, 1] Cert.ReferenceIdeal.Gen.bcast_S1x4096_S8192x4096_0_1
          (broadcastInDim ⟨2, ![1, 4096]⟩ ![1] Cert.ReferenceIdeal.Gen.bcast_S4096_S1x4096_1 b) (ix2 p k)))
      (broadcastInDim ⟨2, ![8192, 4096]⟩ ![] Cert.ReferenceIdeal.Gen.bcast_S_S8192x4096
        (constant ⟨0, ![]⟩ .f32 0x00000000#32) (ix2 p k))
  rw [Cert.LibRowCol.column_cast_apply s shapeCasts_S8192_S8192x1 p 0, shapeCast_a_1a_apply b shapeCasts_S4096_S1x4096 0 k,
    Cert.LibRowCol.columns_bcast_apply _ Cert.ReferenceIdeal.Gen.bcast_S8192x1_S8192x4096_0_1 p k,
    Cert.LibRowCol.column_bcast_apply s Cert.ReferenceIdeal.Gen.bcast_S8192_S8192x1_0 p 0,
    Cert.LibRowCol.rows_bcast_apply _ Cert.ReferenceIdeal.Gen.bcast_S1x4096_S8192x4096_0_1 p k,
    Cert.LibRowCol.row_bcast_apply b Cert.ReferenceIdeal.Gen.bcast_S4096_S1x4096_1 0 k,
    broadcastInDim_scalar_apply]
  rfl

/-- The fourth region's function of the data, the scales laid out as a column and the biases laid out as a row is the
    reference's: rows scaled, bias added. -/
theorem scaled3_eq (D : Vec F S8192x64 .f32) (s : Vec F S8192 .f32) (b : Vec F S64 .f32) :
    Cert.KernelIdeal.Whole3.rowScaled D (shapeCast S8192x1 s shapeCasts_S8192_S8192x1) (shapeCast S1x64 b shapeCasts_S64_S1x64)
      = Cert.ReferenceIdeal.Results.plusBias64 (Cert.ReferenceIdeal.Chain.rows64 D s) b := by
  funext i
  obtain ⟨p, k, rfl⟩ : ∃ (p : Fin 8192) (k : Fin 64), i = ix2 p k := ⟨i 0, i 1, eq_ix2 i⟩
  show FloatOps.addf (FloatOps.mulf (D (ix2 p k)) (shapeCast ⟨2, ![8192, 1]⟩ s shapeCasts_S8192_S8192x1 (ix2 p 0)))
        (shapeCast ⟨2, ![1, 64]⟩ b shapeCasts_S64_S1x64 (ix2 0 k))
    = FloatOps.addf
        (FloatOps.mulf (D (ix2 p k))
          (broadcastInDim ⟨2, ![8192, 64]⟩ ![0, 1] Cert.ReferenceIdeal.Gen.bcast_S8192x1_S8192x64_0_1
            (broadcastInDim ⟨2, ![8192, 1]⟩ ![0] Cert.ReferenceIdeal.Gen.bcast_S8192_S8192x1_0 s) (ix2 p k)))
        (broadcastInDim ⟨2, ![8192, 64]⟩ ![0, 1] Cert.ReferenceIdeal.Gen.bcast_S1x64_S8192x64_0_1
          (broadcastInDim ⟨2, ![1, 64]⟩ ![1] Cert.ReferenceIdeal.Gen.bcast_S64_S1x64_1 b) (ix2 p k))
  rw [Cert.LibRowCol.column_cast_apply s shapeCasts_S8192_S8192x1 p 0, shapeCast_a_1a_apply b shapeCasts_S64_S1x64 0 k,
    Cert.LibRowCol.columns_bcast_apply _ Cert.ReferenceIdeal.Gen.bcast_S8192x1_S8192x64_0_1 p k,
    Cert.LibRowCol.column_bcast_apply s Cert.ReferenceIdeal.Gen.bcast_S8192_S8192x1_0 p 0,
    Cert.LibRowCol.rows_bcast_apply _ Cert.ReferenceIdeal.Gen.bcast_S1x64_S8192x64_0_1 p k,
    Cert.LibRowCol.row_bcast_apply b Cert.ReferenceIdeal.Gen.bcast_S64_S1x64_1 0 k]

end

/-! ## The last stage, at the ideal values -/

/-- The kernel's entrywise hyperbolic tangent is the reference's hyperbolic tangent of one times its argument. -/
theorem tanh_eq (h : FVec Ideal S8192x64 .f32) :
    Cert.KernelIdeal.Whole4.tanhAll (F := Ideal) h = Cert.ReferenceIdeal.Results.code h := by
  funext i
  show FloatOps.tanh (h i)
    = FloatOps.hostUnary .tanh (FloatOps.mulf
        (broadcastInDim ⟨2, ![8192, 64]⟩ ![] Cert.ReferenceIdeal.Gen.bcast_S_S8192x64 (constant ⟨0, ![]⟩ .f32 0x3F800000#32) i) (h i))
  rw [broadcastInDim_scalar_apply]
  show Ideal.tanh (h i) = Ideal.tanh (Ideal.ofBits .f32 0x3F800000#32 * h i)
  rw [Idealize.ShloMosaic.Ideal.ofBits_one_f32, one_mul]

end Cert.Bridge

end
-- ==== Proof.Spine.lean ====
/-
  The kernel's program followed from the launch to the return: what each result buffer holds at the end.

  The buffers' contents at each boundary of @main are a fold from the launch memory: a host stretch applies its operations,
  a kernel region replaces its output array by what its write-backs leave and keeps every other buffer. Reading the fold at
  the three result buffers, stage by stage — the narrowing of the factors, the first product, the aggregation along the
  incidences, the scaled and biased and clamped rows, the second product, the aggregation again, the scaled and biased
  rows, the hyperbolic tangent — and replacing each kernel stage by the reference's spelling of the same function, each
  result buffer ends at the reference's composition of the argument arrays as launched. The argument buffers are written
  by no stage, so every stage reads them as launched.
-/
import proofs.«121961_j88364657148583_1_alg».proof.Proof.Gen.KernelIdeal.Frame
import proofs.«121961_j88364657148583_1_alg».proof.Proof.StretchA
import proofs.«121961_j88364657148583_1_alg».proof.Proof.StretchB
import proofs.«121961_j88364657148583_1_alg».proof.Proof.StretchC
import proofs.«121961_j88364657148583_1_alg».proof.Proof.Bridge

set_option maxRecDepth 16384

noncomputable section

namespace Cert.KernelIdeal.Spine

open Cert.KernelIdeal Cert.KernelIdeal.Gen Cert.KernelIdeal.Stretch
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The argument arrays as launched, at their literal types -/

abbrev x (c : Dev nD) : FVec Ideal S8192x1386 .f32 := m ((c : Thread nD τ).loc main_arg0)
abbrev node (c : Dev nD) : Vec Ideal S65536 .i32 := m ((c : Thread nD τ).loc main_arg1)
abbrev edge (c : Dev nD) : Vec Ideal S65536 .i32 := m ((c : Thread nD τ).loc main_arg2)
abbrev w1 (c : Dev nD) : FVec Ideal S1386x4096 .f32 := m ((c : Thread nD τ).loc main_arg3)
abbrev b1 (c : Dev nD) : FVec Ideal S4096 .f32 := m ((c : Thread nD τ).loc main_arg4)
abbrev w2 (c : Dev nD) : FVec Ideal S4096x64 .f32 := m ((c : Thread nD τ).loc main_arg5)
abbrev b2 (c : Dev nD) : FVec Ideal S64 .f32 := m ((c : Thread nD τ).loc main_arg6)

/-! ## The first product -/

/-- At the first region's exit argument 1 is as launched: the narrowing stretch and the region write other buffers. -/
theorem exit0_arg1 (c : Dev nD) : W2 m ρ c (Proc.devRef .tc main_arg1) = node m c :=
  (W2_of_ne m ρ c main_arg1 (by decide)).trans (first_keeps_main_arg1 (W0 m ρ c))

/-- At the first region's exit argument 2 is as launched: the narrowing stretch and the region write other buffers. -/
theorem exit0_arg2 (c : Dev nD) : W2 m ρ c (Proc.devRef .tc main_arg2) = edge m c :=
  (W2_of_ne m ρ c main_arg2 (by decide)).trans (first_keeps_main_arg2 (W0 m ρ c))

/-- At the first region's exit argument 4 is as launched: the narrowing stretch and the region write other buffers. -/
theorem exit0_arg4 (c : Dev nD) : W2 m ρ c (Proc.devRef .tc main_arg4) = b1 m c :=
  (W2_of_ne m ρ c main_arg4 (by decide)).trans (first_keeps_main_arg4 (W0 m ρ c))

/-- At the first region's exit argument 5 is as launched: the narrowing stretch and the region write other buffers. -/
theorem exit0_arg5 (c : Dev nD) : W2 m ρ c (Proc.devRef .tc main_arg5) = w2 m c :=
  (W2_of_ne m ρ c main_arg5 (by decide)).trans (first_keeps_main_arg5 (W0 m ρ c))

/-- At the first region's exit argument 6 is as launched: the narrowing stretch and the region write other buffers. -/
theorem exit0_arg6 (c : Dev nD) : W2 m ρ c (Proc.devRef .tc main_arg6) = b2 m c :=
  (W2_of_ne m ρ c main_arg6 (by decide)).trans (first_keeps_main_arg6 (W0 m ρ c))

/-- At the first region's exit its output is the product of the narrowed input and the narrowed first weight. -/
theorem exit0_product (c : Dev nD) :
    W2 m ρ c (Proc.devRef .tc main_v2)
      = Whole0.product (truncf .bf16 (x m c) bitsLt_bf16_f32) (truncf .bf16 (w1 m c) bitsLt_bf16_f32) := by
  refine (W2_arr m ρ c 2).trans ?_
  refine (Whole0.whole (V1 m ρ) c).trans ?_
  exact congrArg₂ Whole0.product (first_left (W0 m ρ c)) (first_right (W0 m ρ c))

/-! ## The first layer -/

/-- At the second region's entry its data is the first product, there and back along the incidences. -/
theorem entry1_data (c : Dev nD) :
    W7 m ρ c (Proc.devRef .tc main_v42)
      = Chain.there_and_back4096 (Whole0.product (truncf .bf16 (x m c) bitsLt_bf16_f32) (truncf .bf16 (w1 m c) bitsLt_bf16_f32))
          (node m c) (edge m c) := by
  refine (A_data (W2 m ρ c)).trans ?_
  rw [exit0_product m ρ c, exit0_arg1 m ρ c, exit0_arg2 m ρ c]

/-- At the second region's entry its scale is the column of reciprocal node counts. -/
theorem entry1_scale (c : Dev nD) :
    W7 m ρ c (Proc.devRef .tc main_v43) = shapeCast S8192x1 (Chain.recip (node m c)) shapeCasts_S8192_S8192x1 := by
  refine (A_scale (W2 m ρ c)).trans ?_
  rw [exit0_arg1 m ρ c]

/-- At the second region's entry its bias is the first bias as a row. -/
theorem entry1_bias (c : Dev nD) :
    W7 m ρ c (Proc.devRef .tc main_v44) = shapeCast S1x4096 (b1 m c) shapeCasts_S4096_S1x4096 := by
  refine (A_bias (W2 m ρ c)).trans ?_
  rw [exit0_arg4 m ρ c]

/-- At the second region's exit its output is the reference's first result of the arguments as launched. -/
theorem exit1_feat (c : Dev nD) :
    W8 m ρ c (Proc.devRef .tc main_v45)
      = Cert.ReferenceIdeal.Results.feat (x m c) (node m c) (edge m c) (w1 m c) (b1 m c) := by
  refine (W8_arr m ρ c 3).trans ?_
  refine (Whole1.whole (V7 m ρ) c).trans ?_
  show Whole1.rowScaledClamped (W7 m ρ c (Proc.devRef .tc main_v42)) (W7 m ρ c (Proc.devRef .tc main_v43))
      (W7 m ρ c (Proc.devRef .tc main_v44)) = _
  rw [entry1_data m ρ c, entry1_scale m ρ c, entry1_bias m ρ c, Cert.Bridge.scaled1_eq, Cert.Chain.there_and_back4096_eq,
    Cert.Chain.recip_eq, Cert.Bridge.product1_eq]
  rfl

/-- At the second region's exit argument 1 is as launched. -/
theorem exit1_arg1 (c : Dev nD) : W8 m ρ c (Proc.devRef .tc main_arg1) = node m c :=
  (W8_of_ne m ρ c main_arg1 (by decide)).trans ((A_keeps_main_arg1 (W2 m ρ c)).trans (exit0_arg1 m ρ c))

/-- At the second region's exit argument 2 is as launched. -/
theorem exit1_arg2 (c : Dev nD) : W8 m ρ c (Proc.devRef .tc main_arg2) = edge m c :=
  (W8_of_ne m ρ c main_arg2 (by decide)).trans ((A_keeps_main_arg2 (W2 m ρ c)).trans (exit0_arg2 m ρ c))

/-- At the second region's exit argument 5 is as launched. -/
theorem exit1_arg5 (c : Dev nD) : W8 m ρ c (Proc.devRef .tc main_arg5) = w2 m c :=
  (W8_of_ne m ρ c main_arg5 (by decide)).trans ((A_keeps_main_arg5 (W2 m ρ c)).trans (exit0_arg5 m ρ c))

/-- At the second region's exit argument 6 is as launched. -/
theorem exit1_arg6 (c : Dev nD) : W8 m ρ c (Proc.devRef .tc main_arg6) = b2 m c :=
  (W8_of_ne m ρ c main_arg6 (by decide)).trans ((A_keeps_main_arg6 (W2 m ρ c)).trans (exit0_arg6 m ρ c))

/-! ## The second product -/

/-- At the third region's exit argument 1 is as launched. -/
theorem exit2_arg1 (c : Dev nD) : W10 m ρ c (Proc.devRef .tc main_arg1) = node m c :=
  (W10_of_ne m ρ c main_arg1 (by decide)).trans ((second_keeps_main_arg1 (W8 m ρ c)).trans (exit1_arg1 m ρ c))

/-- At the third region's exit argument 2 is as launched. -/
theorem exit2_arg2 (c : Dev nD) : W10 m ρ c (Proc.devRef .tc main_arg2) = edge m c :=
  (W10_of_ne m ρ c main_arg2 (by decide)).trans ((second_keeps_main_arg2 (W8 m ρ c)).trans (exit1_arg2 m ρ c))

/-- At the third region's exit argument 6 is as launched. -/
theorem exit2_arg6 (c : Dev nD) : W10 m ρ c (Proc.devRef .tc main_arg6) = b2 m c :=
  (W10_of_ne m ρ c main_arg6 (by decide)).trans ((second_keeps_main_arg6 (W8 m ρ c)).trans (exit1_arg6 m ρ c))

/-- At the third region's exit the second region's output is still the first result. -/
theorem exit2_feat (c : Dev nD) :
    W10 m ρ c (Proc.devRef .tc main_v45)
      = Cert.ReferenceIdeal.Results.feat (x m c) (node m c) (edge m c) (w1 m c) (b1 m c) :=
  (W10_of_ne m ρ c main_v45 (by decide)).trans ((second_keeps_main_v45 (W8 m ρ c)).trans (exit1_feat m ρ c))

/-- At the third region's exit its output is the product of the narrowed first result and the narrowed second weight. -/
theorem exit2_product (c : Dev nD) :
    W10 m ρ c (Proc.devRef .tc main_v48)
      = Whole2.product
          (truncf .bf16 (Cert.ReferenceIdeal.Results.feat (x m c) (node m c) (edge m c) (w1 m c) (b1 m c)) bitsLt_bf16_f32)
          (truncf .bf16 (w2 m c) bitsLt_bf16_f32) := by
  refine (W10_arr m ρ c 2).trans ?_
  refine (Whole2.whole (V9 m ρ) c).trans ?_
  refine congrArg₂ Whole2.product ((second_left (W8 m ρ c)).trans ?_) ((second_right (W8 m ρ c)).trans ?_)
  · rw [exit1_feat m ρ c]
  · rw [exit1_arg5 m ρ c]

/-! ## The second layer -/

/-- At the fourth region's entry its data is the second product, there and back along the incidences. -/
theorem entry3_data (c : Dev nD) :
    W15 m ρ c (Proc.devRef .tc main_v88)
      = Chain.there_and_back64
          (Whole2.product
            (truncf .bf16 (Cert.ReferenceIdeal.Results.feat (x m c) (node m c) (edge m c) (w1 m c) (b1 m c)) bitsLt_bf16_f32)
            (truncf .bf16 (w2 m c) bitsLt_bf16_f32))
          (node m c) (edge m c) := by
  refine (C_data (W10 m ρ c)).trans ?_
  rw [exit2_product m ρ c, exit2_arg1 m ρ c, exit2_arg2 m ρ c]

/-- At the fourth region's entry its scale is the column of reciprocal node counts. -/
theorem entry3_scale (c : Dev nD) :
    W15 m ρ c (Proc.devRef .tc main_v89) = shapeCast S8192x1 (Chain.recip (node m c)) shapeCasts_S8192_S8192x1 := by
  refine (C_scale (W10 m ρ c)).trans ?_
  rw [exit2_arg1 m ρ c]

/-- At the fourth region's entry its bias is the second bias as a row. -/
theorem entry3_bias (c : Dev nD) :
    W15 m ρ c (Proc.devRef .tc main_v90) = shapeCast S1x64 (b2 m c) shapeCasts_S64_S1x64 := by
  refine (C_bias (W10 m ρ c)).trans ?_
  rw [exit2_arg6 m ρ c]

/-- The reference's second result of the arguments as launched. -/
abbrev hidOf (c : Dev nD) : FVec Ideal S8192x64 .f32 :=
  Cert.ReferenceIdeal.Results.hid (Cert.ReferenceIdeal.Results.feat (x m c) (node m c) (edge m c) (w1 m c) (b1 m c))
    (node m c) (edge m c) (w2 m c) (b2 m c)

/-- At the fourth region's exit its output is the reference's second result. -/
theorem exit3_hid (c : Dev nD) : W16 m ρ c (Proc.devRef .tc main_v91) = hidOf m c := by
  refine (W16_arr m ρ c 3).trans ?_
  refine (Whole3.whole (V15 m ρ) c).trans ?_
  show Whole3.rowScaled (W15 m ρ c (Proc.devRef .tc main_v88)) (W15 m ρ c (Proc.devRef .tc main_v89))
      (W15 m ρ c (Proc.devRef .tc main_v90)) = _
  rw [entry3_data m ρ c, entry3_scale m ρ c, entry3_bias m ρ c, Cert.Bridge.scaled3_eq, Cert.Chain.there_and_back64_eq,
    Cert.Chain.recip_eq, Cert.Bridge.product2_eq]
  rfl

/-! ## The three results at the return -/

/-- The first result buffer ends at the reference's first result: no later stage writes it. -/
theorem feat_end (c : Dev nD) :
    W17 m ρ c (Proc.devRef .tc main_v45)
      = Cert.ReferenceIdeal.Results.feat (x m c) (node m c) (edge m c) (w1 m c) (b1 m c) :=
  (W17_of_ne m ρ c main_v45 (by decide)).trans <|
  (W16_of_ne m ρ c main_v45 (by decide)).trans <|
  (C_keeps_main_v45 (W10 m ρ c)).trans (exit2_feat m ρ c)

/-- The second result buffer ends at the reference's second result: the last region only reads it. -/
theorem hid_end (c : Dev nD) : W17 m ρ c (Proc.devRef .tc main_v91) = hidOf m c := by
  refine (W17_arr m ρ c 0).trans ?_
  refine ((dat4 (V16 m ρ) c).arrAt_in 0 rfl _).trans ?_
  refine (A_eq4 (V16 m ρ) c 0).trans ?_
  exact exit3_hid m ρ c

/-- The third result buffer ends at the reference's third result. -/
theorem code_end (c : Dev nD) :
    W17 m ρ c (Proc.devRef .tc main_v92) = Cert.ReferenceIdeal.Results.code (hidOf m c) := by
  refine (W17_arr m ρ c 1).trans ?_
  refine (Whole4.whole (V16 m ρ) c).trans ?_
  show Whole4.tanhAll (W16 m ρ c (Proc.devRef .tc main_v91)) = _
  rw [exit3_hid m ρ c, Cert.Bridge.tanh_eq]

end Cert.KernelIdeal.Spine

end
-- ==== Proof.lean ====
/-
  A hypergraph convolution network, two layers and a squashing, as five kernel regions among host operations, against
  its plain reference: the two programs compute the same three arrays over the extended reals.

  One layer is  out = D⁻¹ · H · B⁻¹ · Hᵀ · (x · W) + b : the input times a weight matrix; each row carried from its node to
  the hyperedges the node lies in and summed there; each hyperedge's sum divided by the hyperedge's size; the sums carried
  back to the nodes; each node's sum divided by the number of the node's hyperedges; a bias added to every row. The first
  layer clamps negative entries to zero, the second does not, and the third result is the hyperbolic tangent of the second.

  The kernel's program computes the two matrix products, the two "divide each row, add the bias" steps and the hyperbolic
  tangent in kernel regions that walk their arrays in blocks of rows, and leaves the carrying and the counting to the host;
  the reference does everything on the host. Each kernel region's output array is one function of its input arrays — the
  matrix product, entry by entry one sum of products; the scaled, biased (and clamped) rows; the entrywise hyperbolic
  tangent — because the blocks tile the rows and each written entry depends only on the inputs at its own row and column.
  Between the regions both programs apply the same host operations, so those are carried along as named functions and
  never opened. Three things then differ, and each is the same function at the ideal values: the kernel narrows the
  factors of a product to a shorter float format first (at the ideal values a change of format is the identity); it reads
  the row scales as a column and the bias as a row inside a region where the reference broadcasts them over whole arrays
  (the same entries); and the reference multiplies by one before the hyperbolic tangent (one times x is x). No
  distributive law, cancellation or finiteness of the inputs is used: the sums are compared term by term.

  The word-level program and the idealized one run, and leave their arguments unchanged, by the generated frame
  certificates; the reference by its run read back; nothing was rewritten by the idealization, so that claim is empty.
-/
import proofs.«121961_j88364657148583_1_alg».proof.Defs
import proofs.«121961_j88364657148583_1_alg».proof.Proof.Gen.Kernel
import proofs.«121961_j88364657148583_1_alg».proof.Proof.Gen.Kernel.Skeleton
import proofs.«121961_j88364657148583_1_alg».proof.Proof.Gen.Kernel.Launch
import proofs.«121961_j88364657148583_1_alg».proof.Proof.Gen.Kernel.Points
import proofs.«121961_j88364657148583_1_alg».proof.Proof.Gen.Kernel.Frame
import proofs.«121961_j88364657148583_1_alg».proof.Proof.Gen.KernelIdeal
import proofs.«121961_j88364657148583_1_alg».proof.Proof.Gen.KernelIdeal.Skeleton
import proofs.«121961_j88364657148583_1_alg».proof.Proof.Gen.KernelIdeal.Launch
import proofs.«121961_j88364657148583_1_alg».proof.Proof.Gen.KernelIdeal.Points
import proofs.«121961_j88364657148583_1_alg».proof.Proof.Gen.KernelIdeal.Frame
import proofs.«121961_j88364657148583_1_alg».proof.Proof.Gen.ReferenceIdeal
import proofs.«121961_j88364657148583_1_alg».proof.Proof.Gen.Pre_finite_inputs
import proofs.«121961_j88364657148583_1_alg».proof.Proof.RefRun
import proofs.«121961_j88364657148583_1_alg».proof.Proof.RefValue
import proofs.«121961_j88364657148583_1_alg».proof.Proof.KRun
import proofs.«121961_j88364657148583_1_alg».proof.Proof.Spine
import Idealize.ShloMosaic.Adequacy
import Idealize.ShloMosaic.Init

set_option maxRecDepth 16384

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernel_ideal : Cert.frame_KernelIdeal := fun m ρ _ => Cert.KernelIdeal.Gen.frame m ρ

/-- The reference runs and leaves its arguments unchanged: its run read back, the three results dropped. -/
theorem frame_reference : Cert.frame_ReferenceIdeal := fun m ρ _ =>
  (θ_run Cert.ReferenceIdeal.defs _ _).mono (fun _ h c => (h c).2.2.2) (Cert.ReferenceIdeal.ValueP.run (F := Ideal) m ρ)

/-- The idealization rewrote no operation of the kernel program. -/
theorem preserves : Cert.preserves_Kernel_KernelIdeal := trivial

/-- From memories that agree on the seven arguments both programs end with the same three result arrays: the reference's
    compositions of the arguments (the kernel's buffers by following its program from launch to return, the reference's
    by its run), and with their arguments unchanged. -/
theorem algebraic : Cert.algebraic_KernelIdeal_ReferenceIdeal := by
  intro m ρ m' ρ' _ hagree
  refine ⟨fun c => Cert.ReferenceIdeal.Results.feat (Cert.KernelIdeal.Spine.x m c) (Cert.KernelIdeal.Spine.node m c)
      (Cert.KernelIdeal.Spine.edge m c) (Cert.KernelIdeal.Spine.w1 m c) (Cert.KernelIdeal.Spine.b1 m c),
    fun c => Cert.KernelIdeal.Spine.hidOf m c,
    fun c => Cert.ReferenceIdeal.Results.code (Cert.KernelIdeal.Spine.hidOf m c), ?_, ?_⟩
  · exact (θ_run Cert.KernelIdeal.defs _ _).mono
      (fun r h c => ⟨(h c).1.trans (Cert.KernelIdeal.Spine.feat_end m ρ c),
        (h c).2.1.trans (Cert.KernelIdeal.Spine.hid_end m ρ c),
        (h c).2.2.1.trans (Cert.KernelIdeal.Spine.code_end m ρ c),
        (h c).2.2.2⟩)
      (Cert.KernelIdeal.GenRun.run_values (F := Ideal) m ρ)
  · refine (θ_run Cert.ReferenceIdeal.defs _ _).mono
      (fun r h c => ⟨(h c).1.trans ?_, (h c).2.1.trans ?_, (h c).2.2.1.trans ?_, (h c).2.2.2⟩)
      (Cert.ReferenceIdeal.Results.run_staged (F := Ideal) m' ρ')
    all_goals
      obtain ⟨h0, h1, h2, h3, h4, h5, h6⟩ := hagree c
      dsimp only [Cert.ReferenceIdeal.Results.hidAt, Cert.ReferenceIdeal.Results.featAt]
      rw [h0, h1, h2, h3, h4]
      try rw [h5, h6]
      try rfl

end Cert.Proof

namespace Cert.Proof

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
